-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60_1)) (v1 : (c : Dev Cert.KernelIdeal.nD) → Buf (Elt Ideal) ((c.tc : Thread Cert.KernelIdeal.nD Cert.KernelIdeal.τ).loc Cert.KernelIdeal.main_v60_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60_1) = v0 c
          ∧ r.2.mem ((c.tc : Thread Cert.KernelIdeal.nD Cert.KernelIdeal.τ).loc Cert.KernelIdeal.main_v60_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : IVec S2x1600000 32) (main_arg2 : FVec F S256x128 .f32) (main_arg3 : FVec F S128 .f32) (main_arg4 : FVec F S128x64 .f32) (main_arg5 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S5000x256 : Shape := ⟨2, ![5000, 256]⟩
abbrev S5000x128 : Shape := ⟨2, ![5000, 128]⟩
abbrev S1650000x128 : Shape := ⟨2, ![1650000, 128]⟩
abbrev S1x128 : Shape := ⟨2, ![1, 128]⟩
abbrev S50000x64 : Shape := ⟨2, ![50000, 64]⟩
abbrev S5000x64 : Shape := ⟨2, ![5000, 64]⟩
abbrev S1650000x64 : Shape := ⟨2, ![1650000, 64]⟩
abbrev S1x64 : Shape := ⟨2, ![1, 64]⟩

abbrev nBuf : Space → Nat
  | .hbm => 84
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x128, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x128, .f32⟩
  | .hbm, ⟨56, _⟩ => ⟨S1650000x1, .f32⟩
  | .hbm, ⟨57, _⟩ => ⟨S1650000x128, .f32⟩
  | .hbm, ⟨58, _⟩ => ⟨S1650000x128, .f32⟩
  | .hbm, ⟨59, _⟩ => ⟨S_, .f32⟩
  | .hbm, ⟨60, _⟩ => ⟨S50000x128, .f32⟩
  | .hbm, ⟨61, _⟩ => ⟨S1650000x1, .i32⟩
  | .hbm, ⟨62, _⟩ => ⟨S50000x128, .f32⟩
  | .hbm, ⟨63, _⟩ => ⟨S1x128, .f32⟩
  | .hbm, ⟨64, _⟩ => ⟨S50000x64, .f32⟩
  | .hbm, ⟨65, _⟩ => ⟨S_, .i32⟩
  | .hbm, ⟨66, _⟩ => ⟨S1650000, .i32⟩
  | .hbm, ⟨67, _⟩ => ⟨S1650000, .i1⟩
  | .hbm, ⟨68, _⟩ => ⟨S_, .i32⟩
  | .hbm, ⟨69, _⟩ => ⟨S1650000, .i32⟩
  | .hbm, ⟨70, _⟩ => ⟨S1650000, .i32⟩
  | .hbm, ⟨71, _⟩ => ⟨S1650000, .i32⟩
  | .hbm, ⟨72, _⟩ => ⟨S1650000x1, .i32⟩
  | .hbm, ⟨73, _⟩ => ⟨S1650000x64, .f32⟩
  | .hbm, ⟨74, _⟩ => ⟨S1650000x1, .f32⟩
  | .hbm, ⟨75, _⟩ => ⟨S1650000x64, .f32⟩
  | .hbm, ⟨76, _⟩ => ⟨S1650000x64, .f32⟩
  | .hbm, ⟨77, _⟩ => ⟨S_, .f32⟩
  | .hbm, ⟨78, _⟩ => ⟨S50000x64, .f32⟩
  | .hbm, ⟨79, _⟩ => ⟨S1650000x1, .i32⟩
  | .hbm, ⟨80, _⟩ => ⟨S50000x64, .f32⟩
  | .hbm, ⟨81, _⟩ => ⟨S1x64, .f32⟩
  | .hbm, ⟨82, _⟩ => ⟨S50000x64, .f32⟩
  | .hbm, ⟨83, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60_0 : Ref sig .tc := ⟨.hbm, 82, rfl⟩
abbrev main_v60_1 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  natLt_1_32 : 1 < 32
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x256_S256x128_S5000x128_1_0_0_1_n_n_wf : DotDims.WF S5000x256 S256x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60_0) S5000x64.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v60_1) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S1650000x128 : Shape := ⟨2, ![1650000, 128]⟩
abbrev S1x128 : Shape := ⟨2, ![1, 128]⟩
abbrev S50000x64 : Shape := ⟨2, ![50000, 64]⟩
abbrev S1650000x64 : Shape := ⟨2, ![1650000, 64]⟩
abbrev S1x64 : Shape := ⟨2, ![1, 64]⟩

abbrev nBuf : Space → Nat
  | .hbm => 141
  | .vmem => 0
  | .smem => 0
  | _ => 0

abbrev hbmTy0_0 (i : Nat) : BufTy := match i % 128 with
  | 0 => ⟨S50000x256, .f32⟩
  | 1 => ⟨S2x1600000, .i32⟩
  | 2 => ⟨S256x128, .f32⟩
  | 3 => ⟨S128, .f32⟩
  | 4 => ⟨S128x64, .f32⟩
  | 5 => ⟨S64, .f32⟩
  | 6 => ⟨S50000, .i32⟩
  | 7 => ⟨S1x1600000, .i32⟩
  | 8 => ⟨S1600000, .i32⟩
  | 9 => ⟨S1650000, .i32⟩
  | 10 => ⟨S1x1600000, .i32⟩
  | 11 => ⟨S1600000, .i32⟩
  | 12 => ⟨S1650000, .i32⟩
  | 13 => ⟨S_, .f32⟩
  | 14 => ⟨S1650000, .f32⟩
  | 15 => ⟨S_, .f32⟩
  | 16 => ⟨S50000, .f32⟩
  | 17 => ⟨S1650000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S1650000, .i32⟩
  | 29 => ⟨S1650000, .i1⟩
  | 30 => ⟨S_, .i32⟩
  | 31 => ⟨S1650000, .i32⟩
  | 32 => ⟨S1650000, .i32⟩
  | 33 => ⟨S1650000, .i32⟩
  | 34 => ⟨S1650000x1, .i32⟩
  | 35 => ⟨S1650000, .f32⟩
  | 36 => ⟨S_, .i32⟩
  | 37 => ⟨S1650000, .i32⟩
  | 38 => ⟨S1650000, .i1⟩
  | 39 => ⟨S_, .i32⟩
  | 40 => ⟨S1650000, .i32⟩
  | 41 => ⟨S1650000, .i32⟩
  | 42 => ⟨S1650000, .i32⟩
  | 43 => ⟨S1650000x1, .i32⟩
  | 44 => ⟨S1650000, .f32⟩
  | 45 => ⟨S1650000, .f32⟩
  | 46 => ⟨S50000x128, .f32⟩
  | 47 => ⟨S_, .i32⟩
  | 48 => ⟨S1650000, .i32⟩
  | 49 => ⟨S1650000, .i1⟩
  | 50 => ⟨S_, .i32⟩
  | 51 => ⟨S1650000, .i32⟩
  | 52 => ⟨S1650000, .i32⟩
  | 53 => ⟨S1650000, .i32⟩
  | 54 => ⟨S1650000x1, .i32⟩
  | 55 => ⟨S1650000x128, .f32⟩
  | 56 => ⟨S1650000x1, .f32⟩
  | 57 => ⟨S1650000x128, .f32⟩
  | 58 => ⟨S1650000x128, .f32⟩
  | 59 => ⟨S_, .f32⟩
  | 60 => ⟨S50000x128, .f32⟩
  | 61 => ⟨S1650000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000, .i32⟩
  | 70 => ⟨S1x1600000, .i32⟩
  | 71 => ⟨S1600000, .i32⟩
  | 72 => ⟨S1650000, .i32⟩
  | 73 => ⟨S1x1600000, .i32⟩
  | 74 => ⟨S1600000, .i32⟩
  | 75 => ⟨S1650000, .i32⟩
  | 76 => ⟨S_, .f32⟩
  | 77 => ⟨S1650000, .f32⟩
  | 78 => ⟨S_, .f32⟩
  | 79 => ⟨S50000, .f32⟩
  | 80 => ⟨S1650000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S1650000, .i32⟩
  | 92 => ⟨S1650000, .i1⟩
  | 93 => ⟨S_, .i32⟩
  | 94 => ⟨S1650000, .i32⟩
  | 95 => ⟨S1650000, .i32⟩
  | 96 => ⟨S1650000, .i32⟩
  | 97 => ⟨S1650000x1, .i32⟩
  | 98 => ⟨S1650000, .f32⟩
  | 99 => ⟨S_, .i32⟩
  | 100 => ⟨S1650000, .i32⟩
  | 101 => ⟨S1650000, .i1⟩
  | 102 => ⟨S_, .i32⟩
  | 103 => ⟨S1650000, .i32⟩
  | 104 => ⟨S1650000, .i32⟩
  | 105 => ⟨S1650000, .i32⟩
  | 106 => ⟨S1650000x1, .i32⟩
  | 107 => ⟨S1650000, .f32⟩
  | 108 => ⟨S1650000, .f32⟩
  | 109 => ⟨S50000x64, .f32⟩
  | 110 => ⟨S_, .i32⟩
  | 111 => ⟨S1650000, .i32⟩
  | 112 => ⟨S1650000, .i1⟩
  | 113 => ⟨S_, .i32⟩
  | 114 => ⟨S1650000, .i32⟩
  | 115 => ⟨S1650000, .i32⟩
  | 116 => ⟨S1650000, .i32⟩
  | 117 => ⟨S1650000x1, .i32⟩
  | 118 => ⟨S1650000x64, .f32⟩
  | 119 => ⟨S1650000x1, .f32⟩
  | 120 => ⟨S1650000x64, .f32⟩
  | 121 => ⟨S1650000x64, .f32⟩
  | 122 => ⟨S_, .f32⟩
  | 123 => ⟨S50000x64, .f32⟩
  | 124 => ⟨S1650000x1, .i32⟩
  | 125 => ⟨S50000x64, .f32⟩
  | 126 => ⟨S1x64, .f32⟩
  | 127 => ⟨S50000x64, .f32⟩
  | _ => ⟨S50000x256, .f32⟩

abbrev hbmTy0_1 (i : Nat) : BufTy := match i % 128 with
  | 0 => ⟨S50000x64, .f32⟩
  | 1 => ⟨S50000x64, .f32⟩
  | 2 => ⟨S50000x64, .f32⟩
  | 3 => ⟨S_, .f32⟩
  | 4 => ⟨S50000x64, .f32⟩
  | 5 => ⟨S50000x64, .f32⟩
  | 6 => ⟨S_, .f32⟩
  | 7 => ⟨S50000x64, .f32⟩
  | 8 => ⟨S50000x64, .f32⟩
  | 9 => ⟨S_, .f32⟩
  | 10 => ⟨S50000x64, .f32⟩
  | 11 => ⟨S50000x64, .i1⟩
  | 12 => ⟨S50000x64, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_20 : Ref sig .tc := ⟨.hbm, 131, rfl⟩
abbrev main_v97 : Ref sig .tc := ⟨.hbm, 132, rfl⟩
abbrev main_v98 : Ref sig .tc := ⟨.hbm, 133, rfl⟩
abbrev main_cst_21 : Ref sig .tc := ⟨.hbm, 134, rfl⟩
abbrev main_v99 : Ref sig .tc := ⟨.hbm, 135, rfl⟩
abbrev main_v100 : Ref sig .tc := ⟨.hbm, 136, rfl⟩
abbrev main_cst_22 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x256_S256x128_S50000x128_1_0_0_1_n_n_wf : DotDims.WF S50000x256 S256x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

class Facts : Prop extends Facts₀ where

variable [Facts]
-- ==== Proof.Spec.lean ====
/- A two-layer graph convolution over a fixed edge list, as whole-array functions.

   Every node gets a self loop: the message sources are the first row of the edge list followed by
   0 … N-1, the targets the second row followed by 0 … N-1.  The in-degree of a node counts the edges
   that point at it; an edge (j → i) carries the weight dinv j · dinv i with dinv = deg^(-1/2) where the
   degree is positive and 0 elsewhere.  One layer maps node features h to
       agg i = Σ over edges (j → i) of  weight(j → i) · h j
   (a gather of the source rows, a row-wise scale, a scatter-add onto the target rows), after a dense
   map h = x · W.  The first layer adds its bias and clamps at zero before the second dense map; the
   second adds its bias and applies the logistic function; the prediction is 1 where the probability
   exceeds one half and 0 elsewhere.

   The definitions are stated with the host program's own operations, so that the host program's
   result is literally this composition, and the tiled program's three dense stages are compared with
   `dense0`, `dense1`, `prob` and `pred` one at a time. -/
import proofs.«164764_j35175782154949_1_alg».proof.Proof.Gen.ReferenceIdeal
import Idealize.ShloMosaic.PureOps.Ideal

noncomputable section

namespace Cert.Gcn

open Cert.ReferenceIdeal Cert.ReferenceIdeal.Gen Idealize.ShloMosaic

variable {F : FTy → Type} [FloatOps F]

/-- Message sources: row 0 of the edge list, then every node once (the self loops). -/
def srcOf (ei : (⟨S2x1600000, .i32⟩ : BufTy).Contents (Elt F)) : (⟨S1650000, .i32⟩ : BufTy).Contents (Elt F) :=
  concatenate S1650000 0 [⟨S1600000, (shapeCast S1600000 (extractStridedSlice S1x1600000 ![0, 0] ei slices_S2x1600000_S1x1600000_0_0) shapeCasts_S1x1600000_S1600000)⟩, ⟨S50000, (iotaInDim S50000 32 0)⟩] concatenates_S1600000_S50000_S1650000_d0

/-- Message targets: row 1 of the edge list, then every node once. -/
def dstOf (ei : (⟨S2x1600000, .i32⟩ : BufTy).Contents (Elt F)) : (⟨S1650000, .i32⟩ : BufTy).Contents (Elt F) :=
  concatenate S1650000 0 [⟨S1600000, (shapeCast S1600000 (extractStridedSlice S1x1600000 ![1, 0] ei slices_S2x1600000_S1x1600000_1_0) shapeCasts_S1x1600000_S1600000)⟩, ⟨S50000, (iotaInDim S50000 32 0)⟩] concatenates_S1600000_S50000_S1650000_d0

/-- A negative node number counts from the end. -/
def wrap (s : (⟨S1650000, .i32⟩ : BufTy).Contents (Elt F)) : (⟨S1650000, .i32⟩ : BufTy).Contents (Elt F) :=
  select (cmpi .slt s (broadcastInDim S1650000 ![] bcast_S_S1650000 (constantI S_ 32 0#32))) (addi s (broadcastInDim S1650000 ![] bcast_S_S1650000 (constantI S_ 32 50000#32))) s

/-- In-degree: a one for every edge, added onto the edge's target. -/
def degOf (d : (⟨S1650000, .i32⟩ : BufTy).Contents (Elt F)) : (⟨S50000, .f32⟩ : BufTy).Contents (Elt F) :=
  Host.scatterAdd scatter_S50000_S1650000x1_S1650000_n_0_0_1 (broadcastInDim S50000 ![] bcast_S_S50000 (constant S_ .f32 0x00000000#32)) (broadcastInDim S1650000x1 ![0] bcast_S1650000_S1650000x1_0 d) (broadcastInDim S1650000 ![] bcast_S_S1650000 (constant S_ .f32 0x3F800000#32))

/-- deg^(-1/2) where the degree is positive, 0 elsewhere. -/
def dinvOf (deg : (⟨S50000, .f32⟩ : BufTy).Contents (Elt F)) : (⟨S50000, .f32⟩ : BufTy).Contents (Elt F) :=
  select (cmpf .ogt deg (broadcastInDim S50000 ![] bcast_S_S50000 (constant S_ .f32 0x00000000#32))) (Host.rsqrt deg) (broadcastInDim S50000 ![] bcast_S_S50000 (id (constant S_ .f32 0x00000000#32)))

/-- The weight of every edge: dinv at its source times dinv at its target. -/
def normOf (s d : (⟨S1650000, .i32⟩ : BufTy).Contents (Elt F)) : (⟨S1650000, .f32⟩ : BufTy).Contents (Elt F) :=
  mulf (Host.gather gather_S50000_S1650000x1_S1650000_n_0_n_n_0_1_1 (dinvOf (degOf d)) (broadcastInDim S1650000x1 ![0] bcast_S1650000_S1650000x1_0 (wrap s)))
    (Host.gather gather_S50000_S1650000x1_S1650000_n_0_n_n_0_1_1 (dinvOf (degOf d)) (broadcastInDim S1650000x1 ![0] bcast_S1650000_S1650000x1_0 (wrap d)))

/-- Message passing on 128 features: gather the source rows, scale each by its edge's weight, add onto the target rows. -/
def agg128 (h : (⟨S50000x128, .f32⟩ : BufTy).Contents (Elt F)) (s d : (⟨S1650000, .i32⟩ : BufTy).Contents (Elt F))
    (n : (⟨S1650000, .f32⟩ : BufTy).Contents (Elt F)) : (⟨S50000x128, .f32⟩ : BufTy).Contents (Elt F) :=
  Host.scatterAdd scatter_S50000x128_S1650000x1_S1650000x128_1_0_0_1 (broadcastInDim S50000x128 ![] bcast_S_S50000x128 (constant S_ .f32 0x00000000#32)) (broadcastInDim S1650000x1 ![0] bcast_S1650000_S1650000x1_0 d)
    (mulf (Host.gather gather_S50000x128_S1650000x1_S1650000x128_1_0_n_n_0_1_1128 h (broadcastInDim S1650000x1 ![0] bcast_S1650000_S1650000x1_0 (wrap s)))
      (broadcastInDim S1650000x128 ![0, 1] bcast_S1650000x1_S1650000x128_0_1 (broadcastInDim S1650000x1 ![0] bcast_S1650000_S1650000x1_0 n)))

/-- Message passing on 64 features. -/
def agg64 (h : (⟨S50000x64, .f32⟩ : BufTy).Contents (Elt F)) (s d : (⟨S1650000, .i32⟩ : BufTy).Contents (Elt F))
    (n : (⟨S1650000, .f32⟩ : BufTy).Contents (Elt F)) : (⟨S50000x64, .f32⟩ : BufTy).Contents (Elt F) :=
  Host.scatterAdd scatter_S50000x64_S1650000x1_S1650000x64_1_0_0_1 (broadcastInDim S50000x64 ![] bcast_S_S50000x64 (constant S_ .f32 0x00000000#32)) (broadcastInDim S1650000x1 ![0] bcast_S1650000_S1650000x1_0 d)
    (mulf (Host.gather gather_S50000x64_S1650000x1_S1650000x64_1_0_n_n_0_1_164 h (broadcastInDim S1650000x1 ![0] bcast_S1650000_S1650000x1_0 (wrap s)))
      (broadcastInDim S1650000x64 ![0, 1] bcast_S1650000x1_S1650000x64_0_1 (broadcastInDim S1650000x1 ![0] bcast_S1650000_S1650000x1_0 n)))

/-- The first dense map: x · W1. -/
def dense0 (x : (⟨S50000x256, .f32⟩ : BufTy).Contents (Elt F)) (w : (⟨S256x128, .f32⟩ : BufTy).Contents (Elt F)) :
    (⟨S50000x128, .f32⟩ : BufTy).Contents (Elt F) :=
  Host.dotGeneral dot_S50000x256_S256x128_S50000x128_1_0_0_1_n_n none x w

/-- The second dense map on the first layer's output: max(agg + b, 0) · W2, the bias given as a row. -/
def dense1 (agg : (⟨S50000x128, .f32⟩ : BufTy).Contents (Elt F)) (brow : (⟨S1x128, .f32⟩ : BufTy).Contents (Elt F))
    (w : (⟨S128x64, .f32⟩ : BufTy).Contents (Elt F)) : (⟨S50000x64, .f32⟩ : BufTy).Contents (Elt F) :=
  Host.dotGeneral dot_S50000x128_S128x64_S50000x64_1_0_0_1_n_n none
    (maximumf (addf agg (broadcastInDim S50000x128 ![0, 1] bcast_S1x128_S50000x128_0_1 brow)) (broadcastInDim S50000x128 ![] bcast_S_S50000x128 (constant S_ .f32 0x00000000#32))) w

/-- The class probabilities: 1 / (1 + exp(-(agg + b))), the bias given as a row. -/
def prob (agg : (⟨S50000x64, .f32⟩ : BufTy).Contents (Elt F)) (brow : (⟨S1x64, .f32⟩ : BufTy).Contents (Elt F)) :
    (⟨S50000x64, .f32⟩ : BufTy).Contents (Elt F) :=
  Host.divf (broadcastInDim S50000x64 ![] bcast_S_S50000x64 (constant S_ .f32 0x3F800000#32))
    (addf (broadcastInDim S50000x64 ![] bcast_S_S50000x64 (constant S_ .f32 0x3F800000#32))
      (Host.exp (Host.negf (addf agg (broadcastInDim S50000x64 ![0, 1] bcast_S1x64_S50000x64_0_1 brow)))))

/-- The predictions: 1 where the probability exceeds one half, 0 elsewhere. -/
def pred (agg : (⟨S50000x64, .f32⟩ : BufTy).Contents (Elt F)) (brow : (⟨S1x64, .f32⟩ : BufTy).Contents (Elt F)) :
    (⟨S50000x64, .f32⟩ : BufTy).Contents (Elt F) :=
  uitofp .f32 (cmpf .ogt (prob agg brow) (broadcastInDim S50000x64 ![] bcast_S_S50000x64 (constant S_ .f32 0x3F000000#32)))

/-- A bias vector as a one-row matrix. -/
def row128 (b : (⟨S128, .f32⟩ : BufTy).Contents (Elt F)) : (⟨S1x128, .f32⟩ : BufTy).Contents (Elt F) :=
  broadcastInDim S1x128 ![1] bcast_S128_S1x128_1 b

def row64 (b : (⟨S64, .f32⟩ : BufTy).Contents (Elt F)) : (⟨S1x64, .f32⟩ : BufTy).Contents (Elt F) :=
  broadcastInDim S1x64 ![1] bcast_S64_S1x64_1 b

/-- The second layer's aggregate, from the inputs. -/
def logitsAgg (x : (⟨S50000x256, .f32⟩ : BufTy).Contents (Elt F)) (ei : (⟨S2x1600000, .i32⟩ : BufTy).Contents (Elt F))
    (w1 : (⟨S256x128, .f32⟩ : BufTy).Contents (Elt F)) (b1 : (⟨S128, .f32⟩ : BufTy).Contents (Elt F))
    (w2 : (⟨S128x64, .f32⟩ : BufTy).Contents (Elt F)) : (⟨S50000x64, .f32⟩ : BufTy).Contents (Elt F) :=
  agg64 (dense1 (agg128 (dense0 x w1) (srcOf ei) (dstOf ei) (normOf (srcOf ei) (dstOf ei))) (row128 b1) w2)
    (srcOf ei) (dstOf ei) (normOf (srcOf ei) (dstOf ei))

/-- The network's probabilities, from the inputs. -/
def outProb (x : (⟨S50000x256, .f32⟩ : BufTy).Contents (Elt F)) (ei : (⟨S2x1600000, .i32⟩ : BufTy).Contents (Elt F))
    (w1 : (⟨S256x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) :
    (⟨S50000x64, .f32⟩ : BufTy).Contents (Elt F) :=
  prob (logitsAgg x ei w1 b1 w2) (row64 b2)

/-- The network's predictions, from the inputs. -/
def outPred (x : (⟨S50000x256, .f32⟩ : BufTy).Contents (Elt F)) (ei : (⟨S2x1600000, .i32⟩ : BufTy).Contents (Elt F))
    (w1 : (⟨S256x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) :
    (⟨S50000x64, .f32⟩ : BufTy).Contents (Elt F) :=
  pred (logitsAgg x ei w1 b1 w2) (row64 b2)

end Cert.Gcn

end
-- ==== Proof.HostChain.lean ====
/- What each stretch of host operations of the tiled program leaves in the buffers a later stage reads, as the
   graph convolution's whole-array functions of the buffers the stretch is entered with.

   The first stretch builds, from the edge list alone, the sources, the targets and every edge's weight; the stretch
   after the first tiled stage passes the dense features along the edges (gather, scale, scatter-add) and lays the
   first bias out as a row; the stretch after the second tiled stage does the same on 64 features with the second
   bias.  A buffer a stretch does not write keeps its contents. -/
import proofs.«164764_j35175782154949_1_alg».proof.Proof.Gen.KernelIdeal.Launch
import proofs.«164764_j35175782154949_1_alg».proof.Proof.Spec
import Idealize.ShloMosaic.Lib.StableHlo.Run
import Idealize.ShloMosaic.Lib.Pipeline.Value

set_option maxRecDepth 16384

noncomputable section

namespace Cert.Gcn

open Cert.ReferenceIdeal Cert.ReferenceIdeal.Gen Idealize.ShloMosaic

variable {F : FTy → Type} [FloatOps F]

/-- Every edge's weight from a given table of inverse square-root degrees. -/
def normFrom (dinv : (⟨S50000, .f32⟩ : BufTy).Contents (Elt F)) (s d : (⟨S1650000, .i32⟩ : BufTy).Contents (Elt F)) :
    (⟨S1650000, .f32⟩ : BufTy).Contents (Elt F) :=
  mulf (Host.gather gather_S50000_S1650000x1_S1650000_n_0_n_n_0_1_1 dinv (broadcastInDim S1650000x1 ![0] bcast_S1650000_S1650000x1_0 (wrap s)))
    (Host.gather gather_S50000_S1650000x1_S1650000_n_0_n_n_0_1_1 dinv (broadcastInDim S1650000x1 ![0] bcast_S1650000_S1650000x1_0 (wrap d)))

theorem normOf_eq (s d : (⟨S1650000, .i32⟩ : BufTy).Contents (Elt F)) : normOf s d = normFrom (dinvOf (degOf d)) s d := rfl

end Cert.Gcn

namespace Cert.KernelIdeal.HostChain

open Cert.KernelIdeal Cert.KernelIdeal.Gen Idealize.ShloMosaic Idealize.ShloMosaic.TcCoe Idealize.SL.Sem Idealize.ShloMosaic.StableHlo

variable {F : FTy → Type} [FloatOps F]
variable (W : Valuation τ sig (Elt F))

/-! ## Before the first tiled stage -/

/-- The sources, after the first eighteen operations. -/
theorem src_after0 : after hostOps0 W (Proc.devRef .tc main_v3) = Cert.Gcn.srcOf (W (Proc.devRef .tc main_arg1)) := by
  dsimp only [hostOps0]; after_results; rfl

/-- The targets. -/
theorem dst_after0 : after hostOps0 W (Proc.devRef .tc main_v6) = Cert.Gcn.dstOf (W (Proc.devRef .tc main_arg1)) := by
  dsimp only [hostOps0]; after_results; rfl

/-- The inverse square-root degrees, after the call that guards the zero degrees. -/
theorem dinv_after01 : after hostOps0_1 (after hostOps0 W) (Proc.devRef .tc main_v14)
    = Cert.Gcn.dinvOf (Cert.Gcn.degOf (Cert.Gcn.dstOf (W (Proc.devRef .tc main_arg1)))) := by
  dsimp only [hostOps0, hostOps0_1]; after_results; rfl

theorem src_after01 : after hostOps0_1 (after hostOps0 W) (Proc.devRef .tc main_v3) = Cert.Gcn.srcOf (W (Proc.devRef .tc main_arg1)) := by
  refine Eq.trans ?_ (src_after0 W)
  dsimp only [hostOps0_1]; after_results

theorem dst_after01 : after hostOps0_1 (after hostOps0 W) (Proc.devRef .tc main_v6) = Cert.Gcn.dstOf (W (Proc.devRef .tc main_arg1)) := by
  refine Eq.trans ?_ (dst_after0 W)
  dsimp only [hostOps0_1]; after_results

set_option maxHeartbeats 2000000 in
/-- Every edge's weight, from the table and the two index lists the last nineteen operations are entered with. -/
theorem norm_after02 : after hostOps0_2 W (Proc.devRef .tc main_v29)
    = Cert.Gcn.normFrom (W (Proc.devRef .tc main_v14)) (W (Proc.devRef .tc main_v3)) (W (Proc.devRef .tc main_v6)) := by
  dsimp only [hostOps0_2]; after_results_simp; rfl

theorem keep02_v3 : after hostOps0_2 W (Proc.devRef .tc main_v3) = W (Proc.devRef .tc main_v3) := by
  dsimp only [hostOps0_2]; after_results
theorem keep02_v6 : after hostOps0_2 W (Proc.devRef .tc main_v6) = W (Proc.devRef .tc main_v6) := by
  dsimp only [hostOps0_2]; after_results

/-- The whole first stretch leaves the arguments it does not write as they were. -/
theorem keep0_arg0 : after hostOps0_2 (after hostOps0_1 (after hostOps0 W)) (Proc.devRef .tc main_arg0) = W (Proc.devRef .tc main_arg0) := by
  dsimp only [hostOps0, hostOps0_1, hostOps0_2]; after_results
theorem keep0_arg2 : after hostOps0_2 (after hostOps0_1 (after hostOps0 W)) (Proc.devRef .tc main_arg2) = W (Proc.devRef .tc main_arg2) := by
  dsimp only [hostOps0, hostOps0_1, hostOps0_2]; after_results
theorem keep0_arg3 : after hostOps0_2 (after hostOps0_1 (after hostOps0 W)) (Proc.devRef .tc main_arg3) = W (Proc.devRef .tc main_arg3) := by
  dsimp only [hostOps0, hostOps0_1, hostOps0_2]; after_results
theorem keep0_arg4 : after hostOps0_2 (after hostOps0_1 (after hostOps0 W)) (Proc.devRef .tc main_arg4) = W (Proc.devRef .tc main_arg4) := by
  dsimp only [hostOps0, hostOps0_1, hostOps0_2]; after_results
theorem keep0_arg5 : after hostOps0_2 (after hostOps0_1 (after hostOps0 W)) (Proc.devRef .tc main_arg5) = W (Proc.devRef .tc main_arg5) := by
  dsimp only [hostOps0, hostOps0_1, hostOps0_2]; after_results

/-- The first stretch as a whole: sources, targets and weights from the edge list. -/
theorem src_after0s : after hostOps0_2 (after hostOps0_1 (after hostOps0 W)) (Proc.devRef .tc main_v3) = Cert.Gcn.srcOf (W (Proc.devRef .tc main_arg1)) :=
  (keep02_v3 _).trans (src_after01 W)
theorem dst_after0s : after hostOps0_2 (after hostOps0_1 (after hostOps0 W)) (Proc.devRef .tc main_v6) = Cert.Gcn.dstOf (W (Proc.devRef .tc main_arg1)) :=
  (keep02_v6 _).trans (dst_after01 W)
theorem norm_after0s : after hostOps0_2 (after hostOps0_1 (after hostOps0 W)) (Proc.devRef .tc main_v29)
    = Cert.Gcn.normOf (Cert.Gcn.srcOf (W (Proc.devRef .tc main_arg1))) (Cert.Gcn.dstOf (W (Proc.devRef .tc main_arg1))) := by
  rw [norm_after02, dinv_after01, src_after01, dst_after01, Cert.Gcn.normOf_eq]

/-! ## Between the first and the second tiled stage -/

set_option maxHeartbeats 2000000 in
/-- Message passing on the first dense features. -/
theorem agg_after1 : after hostOps1 W (Proc.devRef .tc main_v43)
    = Cert.Gcn.agg128 (W (Proc.devRef .tc main_v30)) (W (Proc.devRef .tc main_v3)) (W (Proc.devRef .tc main_v6)) (W (Proc.devRef .tc main_v29)) := by
  dsimp only [hostOps1]; after_results_simp; rfl

/-- The first bias as a row. -/
theorem row_after1 : after hostOps1 W (Proc.devRef .tc main_v44)
    = shapeCast S1x128 (W (Proc.devRef .tc main_arg3)) shapeCasts_S128_S1x128 := by
  dsimp only [hostOps1]; after_results; rfl

theorem keep1_v3 : after hostOps1 W (Proc.devRef .tc main_v3) = W (Proc.devRef .tc main_v3) := by
  dsimp only [hostOps1]; after_results
theorem keep1_v6 : after hostOps1 W (Proc.devRef .tc main_v6) = W (Proc.devRef .tc main_v6) := by
  dsimp only [hostOps1]; after_results
theorem keep1_v29 : after hostOps1 W (Proc.devRef .tc main_v29) = W (Proc.devRef .tc main_v29) := by
  dsimp only [hostOps1]; after_results
theorem keep1_arg4 : after hostOps1 W (Proc.devRef .tc main_arg4) = W (Proc.devRef .tc main_arg4) := by
  dsimp only [hostOps1]; after_results
theorem keep1_arg5 : after hostOps1 W (Proc.devRef .tc main_arg5) = W (Proc.devRef .tc main_arg5) := by
  dsimp only [hostOps1]; after_results

/-! ## Between the second and the third tiled stage -/

set_option maxHeartbeats 2000000 in
/-- Message passing on the second dense features. -/
theorem agg_after2 : after hostOps2 W (Proc.devRef .tc main_v58)
    = Cert.Gcn.agg64 (W (Proc.devRef .tc main_v45)) (W (Proc.devRef .tc main_v3)) (W (Proc.devRef .tc main_v6)) (W (Proc.devRef .tc main_v29)) := by
  dsimp only [hostOps2]; after_results_simp; rfl

/-- The second bias as a row. -/
theorem row_after2 : after hostOps2 W (Proc.devRef .tc main_v59)
    = shapeCast S1x64 (W (Proc.devRef .tc main_arg5)) shapeCasts_S64_S1x64 := by
  dsimp only [hostOps2]; after_results; rfl

/-! ## A bias vector as a row

A reshape of a vector of length n to a 1 × n matrix and a broadcast of it along axis 1 of a 1 × n matrix read the
same entry: entry (0, q) is entry q of the vector. -/

theorem row128_eq (b : (⟨S128, .f32⟩ : BufTy).Contents (Elt F)) :
    shapeCast S1x128 b shapeCasts_S128_S1x128 = Cert.Gcn.row128 b := by
  funext j
  unfold Cert.Gcn.row128
  refine (shapeCast_addUnit_apply ![128] b shapeCasts_S128_S1x128 j).trans
    (broadcastInDim_apply _ _ b j (fun a => j a.succ) fun a => ?_).symm
  match a with
  | ⟨0, _⟩ => rw [if_neg (by decide +revert)]; rfl

theorem row64_eq (b : (⟨S64, .f32⟩ : BufTy).Contents (Elt F)) :
    shapeCast S1x64 b shapeCasts_S64_S1x64 = Cert.Gcn.row64 b := by
  funext j
  unfold Cert.Gcn.row64
  refine (shapeCast_addUnit_apply ![64] b shapeCasts_S64_S1x64 j).trans
    (broadcastInDim_apply _ _ b j (fun a => j a.succ) fun a => ?_).symm
  match a with
  | ⟨0, _⟩ => rw [if_neg (by decide +revert)]; rfl

end Cert.KernelIdeal.HostChain

end
-- ==== Proof.KValue.lean ====
/- The tiled program's two result arrays as the graph convolution of its arguments.

   The run's buffer contents are followed from the launch to the return, boundary by boundary: the first stretch of
   host operations leaves the sources, the targets and the edge weights (functions of the edge list alone), which no
   later stage writes; each tiled stage leaves its dense map of the arrays it is entered with in its result array and
   every other buffer as it was; each stretch between two stages passes the stage's result along the edges and lays
   the next bias out as a row.  Composed, the last stage's two result arrays are the specification's probabilities and
   predictions.  What each tiled stage leaves is taken as a hypothesis here (one per stage, at any entry contents). -/
import proofs.«164764_j35175782154949_1_alg».proof.Proof.Gen.KernelIdeal.Frame
import proofs.«164764_j35175782154949_1_alg».proof.Proof.HostChain

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## At the first tiled stage's entry -/

theorem src3 (c : Dev nD) : W3 m ρ c (Proc.devRef .tc main_v3) = Cert.Gcn.srcOf (m ((c : Thread nD τ).loc main_arg1)) := HostChain.src_after0s (W0 m ρ c)
theorem dst3 (c : Dev nD) : W3 m ρ c (Proc.devRef .tc main_v6) = Cert.Gcn.dstOf (m ((c : Thread nD τ).loc main_arg1)) := HostChain.dst_after0s (W0 m ρ c)
theorem nrm3 (c : Dev nD) : W3 m ρ c (Proc.devRef .tc main_v29) = Cert.Gcn.normOf (Cert.Gcn.srcOf (m ((c : Thread nD τ).loc main_arg1))) (Cert.Gcn.dstOf (m ((c : Thread nD τ).loc main_arg1))) := HostChain.norm_after0s (W0 m ρ c)
theorem arg0_3 (c : Dev nD) : W3 m ρ c (Proc.devRef .tc main_arg0) = m ((c : Thread nD τ).loc main_arg0) := HostChain.keep0_arg0 (W0 m ρ c)
theorem arg2_3 (c : Dev nD) : W3 m ρ c (Proc.devRef .tc main_arg2) = m ((c : Thread nD τ).loc main_arg2) := HostChain.keep0_arg2 (W0 m ρ c)
theorem arg3_3 (c : Dev nD) : W3 m ρ c (Proc.devRef .tc main_arg3) = m ((c : Thread nD τ).loc main_arg3) := HostChain.keep0_arg3 (W0 m ρ c)
theorem arg4_3 (c : Dev nD) : W3 m ρ c (Proc.devRef .tc main_arg4) = m ((c : Thread nD τ).loc main_arg4) := HostChain.keep0_arg4 (W0 m ρ c)
theorem arg5_3 (c : Dev nD) : W3 m ρ c (Proc.devRef .tc main_arg5) = m ((c : Thread nD τ).loc main_arg5) := HostChain.keep0_arg5 (W0 m ρ c)

/-! ## At the first tiled stage's exit -/

section Stage0
variable (hR0 : ∀ (V : (c : Dev nD) → (b : Ref sig .tc) → Buf (Elt Ideal) ((c : Thread nD τ).loc b)) (c : Dev nD),
  (dat0 (F := Ideal) V c).arrAt 2 cfg0.N = Cert.Gcn.dense0 (F := Ideal) (V c main_arg0) (V c main_arg2))
include hR0

theorem h0_4 (c : Dev nD) : W4 m ρ c (Proc.devRef .tc main_v30) = Cert.Gcn.dense0 (m ((c : Thread nD τ).loc main_arg0)) (m ((c : Thread nD τ).loc main_arg2)) := by
  refine (W4_arr m ρ c 2).trans ((hR0 (V3 m ρ) c).trans ?_)
  show Cert.Gcn.dense0 (W3 m ρ c (Proc.devRef .tc main_arg0)) (W3 m ρ c (Proc.devRef .tc main_arg2)) = _
  rw [arg0_3, arg2_3]
end Stage0

theorem src4 (c : Dev nD) : W4 m ρ c (Proc.devRef .tc main_v3) = Cert.Gcn.srcOf (m ((c : Thread nD τ).loc main_arg1)) := (W4_of_ne m ρ c main_v3 (by decide)).trans (src3 m ρ c)
theorem dst4 (c : Dev nD) : W4 m ρ c (Proc.devRef .tc main_v6) = Cert.Gcn.dstOf (m ((c : Thread nD τ).loc main_arg1)) := (W4_of_ne m ρ c main_v6 (by decide)).trans (dst3 m ρ c)
theorem nrm4 (c : Dev nD) : W4 m ρ c (Proc.devRef .tc main_v29) = Cert.Gcn.normOf (Cert.Gcn.srcOf (m ((c : Thread nD τ).loc main_arg1))) (Cert.Gcn.dstOf (m ((c : Thread nD τ).loc main_arg1))) := (W4_of_ne m ρ c main_v29 (by decide)).trans (nrm3 m ρ c)
theorem arg3_4 (c : Dev nD) : W4 m ρ c (Proc.devRef .tc main_arg3) = m ((c : Thread nD τ).loc main_arg3) := (W4_of_ne m ρ c main_arg3 (by decide)).trans (arg3_3 m ρ c)
theorem arg4_4 (c : Dev nD) : W4 m ρ c (Proc.devRef .tc main_arg4) = m ((c : Thread nD τ).loc main_arg4) := (W4_of_ne m ρ c main_arg4 (by decide)).trans (arg4_3 m ρ c)
theorem arg5_4 (c : Dev nD) : W4 m ρ c (Proc.devRef .tc main_arg5) = m ((c : Thread nD τ).loc main_arg5) := (W4_of_ne m ρ c main_arg5 (by decide)).trans (arg5_3 m ρ c)

/-! ## At the second tiled stage's entry -/

section Stage0'
variable (hR0 : ∀ (V : (c : Dev nD) → (b : Ref sig .tc) → Buf (Elt Ideal) ((c : Thread nD τ).loc b)) (c : Dev nD),
  (dat0 (F := Ideal) V c).arrAt 2 cfg0.N = Cert.Gcn.dense0 (F := Ideal) (V c main_arg0) (V c main_arg2))
include hR0

theorem agg5 (c : Dev nD) : W5 m ρ c (Proc.devRef .tc main_v43) = Cert.Gcn.agg128 (Cert.Gcn.dense0 (m ((c : Thread nD τ).loc main_arg0)) (m ((c : Thread nD τ).loc main_arg2))) (Cert.Gcn.srcOf (m ((c : Thread nD τ).loc main_arg1))) (Cert.Gcn.dstOf (m ((c : Thread nD τ).loc main_arg1))) (Cert.Gcn.normOf (Cert.Gcn.srcOf (m ((c : Thread nD τ).loc main_arg1))) (Cert.Gcn.dstOf (m ((c : Thread nD τ).loc main_arg1)))) := by
  refine (HostChain.agg_after1 (W4 m ρ c)).trans ?_
  rw [h0_4 m ρ hR0, src4, dst4, nrm4]
end Stage0'

theorem row5 (c : Dev nD) : W5 m ρ c (Proc.devRef .tc main_v44) = Cert.Gcn.row128 (m ((c : Thread nD τ).loc main_arg3)) := by
  refine (HostChain.row_after1 (W4 m ρ c)).trans ?_
  rw [arg3_4, HostChain.row128_eq]
theorem src5 (c : Dev nD) : W5 m ρ c (Proc.devRef .tc main_v3) = Cert.Gcn.srcOf (m ((c : Thread nD τ).loc main_arg1)) := (HostChain.keep1_v3 (W4 m ρ c)).trans (src4 m ρ c)
theorem dst5 (c : Dev nD) : W5 m ρ c (Proc.devRef .tc main_v6) = Cert.Gcn.dstOf (m ((c : Thread nD τ).loc main_arg1)) := (HostChain.keep1_v6 (W4 m ρ c)).trans (dst4 m ρ c)
theorem nrm5 (c : Dev nD) : W5 m ρ c (Proc.devRef .tc main_v29) = Cert.Gcn.normOf (Cert.Gcn.srcOf (m ((c : Thread nD τ).loc main_arg1))) (Cert.Gcn.dstOf (m ((c : Thread nD τ).loc main_arg1))) := (HostChain.keep1_v29 (W4 m ρ c)).trans (nrm4 m ρ c)
theorem arg4_5 (c : Dev nD) : W5 m ρ c (Proc.devRef .tc main_arg4) = m ((c : Thread nD τ).loc main_arg4) := (HostChain.keep1_arg4 (W4 m ρ c)).trans (arg4_4 m ρ c)
theorem arg5_5 (c : Dev nD) : W5 m ρ c (Proc.devRef .tc main_arg5) = m ((c : Thread nD τ).loc main_arg5) := (HostChain.keep1_arg5 (W4 m ρ c)).trans (arg5_4 m ρ c)

/-! ## At the second tiled stage's exit, and the third's entry and exit -/

section Stages
variable (hR0 : ∀ (V : (c : Dev nD) → (b : Ref sig .tc) → Buf (Elt Ideal) ((c : Thread nD τ).loc b)) (c : Dev nD),
  (dat0 (F := Ideal) V c).arrAt 2 cfg0.N = Cert.Gcn.dense0 (F := Ideal) (V c main_arg0) (V c main_arg2))
variable (hR1 : ∀ (V : (c : Dev nD) → (b : Ref sig .tc) → Buf (Elt Ideal) ((c : Thread nD τ).loc b)) (c : Dev nD),
  (dat1 (F := Ideal) V c).arrAt 3 cfg1.N = Cert.Gcn.dense1 (F := Ideal) (V c main_v43) (V c main_v44) (V c main_arg4))
include hR0 hR1

theorem h1_6 (c : Dev nD) : W6 m ρ c (Proc.devRef .tc main_v45) = Cert.Gcn.dense1 (Cert.Gcn.agg128 (Cert.Gcn.dense0 (m ((c : Thread nD τ).loc main_arg0)) (m ((c : Thread nD τ).loc main_arg2))) (Cert.Gcn.srcOf (m ((c : Thread nD τ).loc main_arg1))) (Cert.Gcn.dstOf (m ((c : Thread nD τ).loc main_arg1))) (Cert.Gcn.normOf (Cert.Gcn.srcOf (m ((c : Thread nD τ).loc main_arg1))) (Cert.Gcn.dstOf (m ((c : Thread nD τ).loc main_arg1))))) (Cert.Gcn.row128 (m ((c : Thread nD τ).loc main_arg3))) (m ((c : Thread nD τ).loc main_arg4)) := by
  refine (W6_arr m ρ c 3).trans ((hR1 (V5 m ρ) c).trans ?_)
  show Cert.Gcn.dense1 (W5 m ρ c (Proc.devRef .tc main_v43)) (W5 m ρ c (Proc.devRef .tc main_v44)) (W5 m ρ c (Proc.devRef .tc main_arg4)) = _
  rw [agg5 m ρ hR0, row5, arg4_5]

/-- The second layer's aggregate, at the third stage's entry. -/
theorem agg7 (c : Dev nD) : W7 m ρ c (Proc.devRef .tc main_v58)
    = Cert.Gcn.logitsAgg (m ((c : Thread nD τ).loc main_arg0)) (m ((c : Thread nD τ).loc main_arg1)) (m ((c : Thread nD τ).loc main_arg2)) (m ((c : Thread nD τ).loc main_arg3)) (m ((c : Thread nD τ).loc main_arg4)) := by
  refine (HostChain.agg_after2 (W6 m ρ c)).trans ?_
  rw [h1_6 m ρ hR0 hR1, (W6_of_ne m ρ c main_v3 (by decide)).trans (src5 m ρ c), (W6_of_ne m ρ c main_v6 (by decide)).trans (dst5 m ρ c),
    (W6_of_ne m ρ c main_v29 (by decide)).trans (nrm5 m ρ c)]
  rfl
end Stages

theorem row7 (c : Dev nD) : W7 m ρ c (Proc.devRef .tc main_v59) = Cert.Gcn.row64 (m ((c : Thread nD τ).loc main_arg5)) := by
  refine (HostChain.row_after2 (W6 m ρ c)).trans ?_
  rw [(W6_of_ne m ρ c main_arg5 (by decide)).trans (arg5_5 m ρ c), HostChain.row64_eq]

section Results
variable (hR0 : ∀ (V : (c : Dev nD) → (b : Ref sig .tc) → Buf (Elt Ideal) ((c : Thread nD τ).loc b)) (c : Dev nD),
  (dat0 (F := Ideal) V c).arrAt 2 cfg0.N = Cert.Gcn.dense0 (F := Ideal) (V c main_arg0) (V c main_arg2))
variable (hR1 : ∀ (V : (c : Dev nD) → (b : Ref sig .tc) → Buf (Elt Ideal) ((c : Thread nD τ).loc b)) (c : Dev nD),
  (dat1 (F := Ideal) V c).arrAt 3 cfg1.N = Cert.Gcn.dense1 (F := Ideal) (V c main_v43) (V c main_v44) (V c main_arg4))
variable (hR2a : ∀ (V : (c : Dev nD) → (b : Ref sig .tc) → Buf (Elt Ideal) ((c : Thread nD τ).loc b)) (c : Dev nD),
  (dat2 (F := Ideal) V c).arrAt 2 cfg2.N = Cert.Gcn.prob (F := Ideal) (V c main_v58) (V c main_v59))
variable (hR2b : ∀ (V : (c : Dev nD) → (b : Ref sig .tc) → Buf (Elt Ideal) ((c : Thread nD τ).loc b)) (c : Dev nD),
  (dat2 (F := Ideal) V c).arrAt 3 cfg2.N = Cert.Gcn.pred (F := Ideal) (V c main_v58) (V c main_v59))
include hR0 hR1 hR2a hR2b

/-- The probability array at the return. -/
theorem prob8 (c : Dev nD) : W8 m ρ c (Proc.devRef .tc main_v60_0)
    = Cert.Gcn.outProb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 2).trans ((hR2a (V7 m ρ) c).trans ?_)
  show Cert.Gcn.prob (W7 m ρ c (Proc.devRef .tc main_v58)) (W7 m ρ c (Proc.devRef .tc main_v59)) = _
  rw [agg7 m ρ hR0 hR1, row7]
  rfl

/-- The prediction array at the return. -/
theorem pred8 (c : Dev nD) : W8 m ρ c (Proc.devRef .tc main_v60_1)
    = Cert.Gcn.outPred (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 3).trans ((hR2b (V7 m ρ) c).trans ?_)
  show Cert.Gcn.pred (W7 m ρ c (Proc.devRef .tc main_v58)) (W7 m ρ c (Proc.devRef .tc main_v59)) = _
  rw [agg7 m ρ hR0 hR1, row7]
  rfl
end Results

end Cert.KernelIdeal.KValue

end
-- ==== Proof.Region0.lean ====
/- The first tiled stage: ten row blocks of 5000 nodes, each block's rows times the whole weight matrix, written back block by block, leave the whole product x · W1 in the result array.

   Block t of the node features holds rows 5000·t … 5000·t + 4999 of x, and the weight block is all of W1 at every
   point.  The body forms, for a row r of the block and a column q, the sum over k < 256 of block[r, k] · W1[k, q]
   into a zero accumulator (the narrowing of both operands to sixteen bits is the identity on extended reals), and
   stores it at (r, q) of the output block, which is written back to rows 5000·t … of the result.  The whole product
   read at (5000·t + r, q) is the sum over k < 256 of x[5000·t + r, k] · W1[k, q]: term by term the same sum.  The ten
   blocks are disjoint and exhaust the 50000 rows (row i lies in block i / 5000), so the result array is x · W1. -/
import proofs.«164764_j35175782154949_1_alg».proof.Proof.Gen.KernelIdeal.Frame
import proofs.«164764_j35175782154949_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The block product at an entry -/

/-- The contraction record of the block product: the left operand's row is the output's row … -/
theorem blockLhs_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- … its column the summation index; … -/
theorem blockLhs_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- … the right operand's row the summation index … -/
theorem blockRhs_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- … and its column the output's column. -/
theorem blockRhs_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- What the body stores at row `r`, column `q` of its output block: Σ_{k<256} a[r,k] · b[k,q] of the two loaded blocks
    (the accumulator is zero, and narrowing to sixteen bits changes no extended real). -/
theorem blockProduct_apply (a : Vec Ideal S5000x256 .f32) (b : Vec Ideal S256x128 .f32) (r : Fin 5000) (q : Fin 128) :
    k0_pay1 (F := Ideal) a b (ix2 r q) = ∑ k : Fin 256, a (ix2 r k) * b (ix2 k q) := by
  unfold k0_pay1
  refine (Ideal.matmul_constant_zero_apply dot_S5000x256_S256x128_S5000x128_1_0_0_1_n_n none _ _ (ix2 r q)).trans ?_
  rw [← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 r q) ((ValueIdx.contrEquiv1 dot_S5000x256_S256x128_S5000x128_1_0_0_1_n_n 256 rfl rfl).symm k) = ix2 r k := funext fun d => Fin.ext (by
    match d with
    | ⟨0, _⟩ => exact blockLhs_0 _ _
    | ⟨1, _⟩ => exact (blockLhs_1 _ _).trans hk)
  have er : dot_S5000x256_S256x128_S5000x128_1_0_0_1_n_n.rhsIdx (ix2 r q) ((ValueIdx.contrEquiv1 dot_S5000x256_S256x128_S5000x128_1_0_0_1_n_n 256 rfl rfl).symm k) = ix2 k q := funext fun d => Fin.ext (by
    match d with
    | ⟨0, _⟩ => exact (blockRhs_0 _ _).trans hk
    | ⟨1, _⟩ => exact blockRhs_1 _ _)
  rw [truncf_apply, truncf_apply, el, er]

/-! ## The whole product at an entry -/

/-- The contraction record of the whole product x · W1, axis by axis as for the block's. -/
theorem wholeLhs_0 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 0).val = (i 0).val := by
  unfold DotDims.lhsIdx
  rw [dif_neg (show ¬(0 : Fin Cert.ReferenceIdeal.S50000x256.rank) ∈ Cert.ReferenceIdeal.dot_S50000x256_S256x128_S50000x128_1_0_0_1_n_n.lhsBatch by decide), dif_pos (show (0 : Fin Cert.ReferenceIdeal.S50000x256.rank) ∈ Cert.ReferenceIdeal.dot_S50000x256_S256x128_S50000x128_1_0_0_1_n_n.lhsNonContracting by decide)]
  rfl
theorem wholeLhs_1 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 1).val = (q ⟨0, by decide⟩).val :=
  Cert.ReferenceIdeal.dot_S50000x256_S256x128_S50000x128_1_0_0_1_n_n.lhsIdx_val_of_single rfl i q
theorem wholeRhs_0 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 0).val = (q ⟨0, by decide⟩).val :=
  Cert.ReferenceIdeal.dot_S50000x256_S256x128_S50000x128_1_0_0_1_n_n.rhsIdx_val_of_single rfl i q
theorem wholeRhs_1 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 1).val = (i 1).val := by
  unfold DotDims.rhsIdx
  rw [dif_neg (show ¬(1 : Fin Cert.ReferenceIdeal.S256x128.rank) ∈ Cert.ReferenceIdeal.dot_S50000x256_S256x128_S50000x128_1_0_0_1_n_n.rhsBatch by decide), dif_pos (show (1 : Fin Cert.ReferenceIdeal.S256x128.rank) ∈ Cert.ReferenceIdeal.dot_S50000x256_S256x128_S50000x128_1_0_0_1_n_n.rhsNonContracting by decide)]
  rfl

/-- The dense map x · W1 at row `i`, column `q`: Σ_{k<256} x[i,k] · W1[k,q]. -/
theorem dense0_apply (x : Vec Ideal S50000x256 .f32) (w : Vec Ideal S256x128 .f32) (i : Fin 50000) (q : Fin 128) :
    Cert.Gcn.dense0 (F := Ideal) x w (ix2 i q) = ∑ k : Fin 256, x (ix2 i k) * w (ix2 k q) := by
  unfold Cert.Gcn.dense0
  simp only [Host.dotGeneral]
  refine (Ideal.dotGeneral_apply Cert.ReferenceIdeal.dot_S50000x256_S256x128_S50000x128_1_0_0_1_n_n none _ _ _ (ix2 i q)).trans ?_
  rw [← Equiv.sum_comp (ValueIdx.contrEquiv1 Cert.ReferenceIdeal.dot_S50000x256_S256x128_S50000x128_1_0_0_1_n_n 256 rfl rfl).symm]
  refine Finset.sum_congr rfl fun k _ => ?_
  have hk := ValueIdx.contrEquiv1_symm_val Cert.ReferenceIdeal.dot_S50000x256_S256x128_S50000x128_1_0_0_1_n_n 256 rfl rfl k
  have el : Cert.ReferenceIdeal.dot_S50000x256_S256x128_S50000x128_1_0_0_1_n_n.lhsIdx (ix2 i q) ((ValueIdx.contrEquiv1 Cert.ReferenceIdeal.dot_S50000x256_S256x128_S50000x128_1_0_0_1_n_n 256 rfl rfl).symm k) = ix2 i k := funext fun d => Fin.ext (by
    match d with
    | ⟨0, _⟩ => exact wholeLhs_0 _ _
    | ⟨1, _⟩ => exact (wholeLhs_1 _ _).trans hk)
  have er : Cert.ReferenceIdeal.dot_S50000x256_S256x128_S50000x128_1_0_0_1_n_n.rhsIdx (ix2 i q) ((ValueIdx.contrEquiv1 Cert.ReferenceIdeal.dot_S50000x256_S256x128_S50000x128_1_0_0_1_n_n 256 rfl rfl).symm k) = ix2 k q := funext fun d => Fin.ext (by
    match d with
    | ⟨0, _⟩ => exact (wholeRhs_0 _ _).trans hk
    | ⟨1, _⟩ => exact wholeRhs_1 _ _)
  rw [el, er]

/-! ## One point's output block is a block of x · W1 -/

/-- The same entry seen from both sides.  If the loaded feature block `a` is rows `n · 5000 …` of `x` and the loaded weight block
    `b` is `w`, then the entry the body stores at `y` is the entry of x · w at row `n · 5000 + y₀`, column `y₁`: both are
    Σ_{k<256} x[n · 5000 + y₀, k] · w[k, y₁]. -/
theorem entry_eq (x : Vec Ideal S50000x256 .f32) (w : Vec Ideal S256x128 .f32)
    (a : Vec Ideal S5000x256 .f32) (b : Vec Ideal S256x128 .f32) (n : Nat)
    (ha : ∀ (z : S5000x256.Idx) (i' : S50000x256.Idx), (i' 0).val = n * 5000 + (z 0).val → (i' 1).val = (z 1).val → a z = x i')
    (hb : ∀ (z i' : S256x128.Idx), (i' 0).val = (z 0).val → (i' 1).val = (z 1).val → b z = w i')
    (y : S5000x128.Idx) (i : S50000x128.Idx) (h0 : (i 0).val = n * 5000 + (y 0).val) (h1 : (i 1).val = (y 1).val) :
    k0_pay1 (F := Ideal) a b y = Cert.Gcn.dense0 (F := Ideal) x w i := by
  obtain ⟨r, q, rfl⟩ : ∃ (r : Fin 5000) (q : Fin 128), y = ix2 r q := ⟨y 0, y 1, eq_ix2 y⟩
  obtain ⟨i0, i1, rfl⟩ : ∃ (i0 : Fin 50000) (i1 : Fin 128), i = ix2 i0 i1 := ⟨i 0, i 1, eq_ix2 i⟩
  rw [blockProduct_apply, dense0_apply]
  refine Finset.sum_congr rfl fun k _ => ?_
  rw [ha (ix2 r k) (ix2 i0 k) h0 rfl, hb (ix2 k q) (ix2 k i1) rfl h1]

/-- The three index maps over the ten points: the feature window and the output window sit at row block `t`, column block 0;
    the weight window stays at block (0, 0). -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem origin : (![0, 0] : Fin 2 → Nat) = fun _ => 0 := funext fun a => by fin_cases a <;> rfl

-- the buffer contents the stage is entered with: any
variable (V : (c : Dev nD) → (b : Ref sig .tc) → Buf (Elt Ideal) ((c : Thread nD τ).loc b))

/-- What point `t` writes back is block `t` of x · W1 (of the arrays as the stage finds them). -/
theorem flushed_eq (c : Dev nD) (t : Fin cfg0.N) :
    (dat0 (F := Ideal) V c).flushed 2 t = ((cfg0.win 2).blk t).view.read (Elt Ideal) (Cert.Gcn.dense0 (F := Ideal) (V c main_arg0) (V c main_arg2)) := by
  show (cfg0.win 2).cut (grid0.coords t) ((dat0 (F := Ideal) V c).after 2 t) = _
  rw [after0_2]
  unfold out0_2
  rw [View.canon_unit_zero origin]
  simp only [View.ld_unit_zero (S := S5000x256) origin, View.ld_unit_zero (S := S256x128) origin]
  obtain ⟨e00, e01, e10, e11, e20, e21⟩ := blockIndex t
  funext j
  refine entry_eq (V c main_arg0) (V c main_arg2) (iblk0 V c 0 t) (iblk0 V c 1 t) t.val ?_ ?_ j (((cfg0.win 2).blk t).view.emb j) ?_ ?_
  · intro z i' h0 h1
    show V c main_arg0 (((cfg0.win 0).blk t).view.emb z) = V c main_arg0 i'
    refine congrArg (V c main_arg0) (funext fun d => Fin.ext ?_)
    match d with
    | ⟨0, _⟩ => show win0_0.index t (0 : Fin 2) * 5000 + 1 * (z 0).val = (i' 0).val; omega
    | ⟨1, _⟩ => show win0_0.index t (1 : Fin 2) * 256 + 1 * (z 1).val = (i' 1).val; omega
  · intro z i' h0 h1
    show V c main_arg2 (((cfg0.win 1).blk t).view.emb z) = V c main_arg2 i'
    refine congrArg (V c main_arg2) (funext fun d => Fin.ext ?_)
    match d with
    | ⟨0, _⟩ => show win0_1.index t (0 : Fin 2) * 256 + 1 * (z 0).val = (i' 0).val; omega
    | ⟨1, _⟩ => show win0_1.index t (1 : Fin 2) * 128 + 1 * (z 1).val = (i' 1).val; omega
  · show win0_2.index t (0 : Fin 2) * 5000 + 1 * (j 0).val = t.val * 5000 + (j 0).val; omega
  · show win0_2.index t (1 : Fin 2) * 128 + 1 * (j 1).val = (j 1).val; omega

/-! ## The ten blocks exhaust the rows -/

/-- An index of the result array is in point `t`'s block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row `i₀` of the result lies in the block of point `i₀ / 5000`, which is written back. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 5000 < cfg0.N := by
    show (i 0).val / 5000 < grid0.N
    rw [N_0]; omega
  obtain ⟨-, -, -, -, e20, e21⟩ := blockIndex ⟨(i 0).val / 5000, hN⟩
  have e20' : win0_2.index ⟨(i 0).val / 5000, hN⟩ (0 : Fin 2) = (i 0).val / 5000 := e20
  refine ⟨⟨(i 0).val / 5000, hN⟩, flush0_2 _, ?_⟩
  rw [mem_block]
  intro a
  match a with
  | ⟨0, _⟩ => show win0_2.index ⟨(i 0).val / 5000, hN⟩ (0 : Fin 2) * 5000 ≤ (i 0).val ∧ (i 0).val < win0_2.index ⟨(i 0).val / 5000, hN⟩ (0 : Fin 2) * 5000 + 5000; omega
  | ⟨1, _⟩ => show win0_2.index ⟨(i 0).val / 5000, hN⟩ (1 : Fin 2) * 128 ≤ (i 1).val ∧ (i 1).val < win0_2.index ⟨(i 0).val / 5000, hN⟩ (1 : Fin 2) * 128 + 128; omega

/-- After the first tiled stage its result array is the whole dense map of the arrays it was entered with. -/
theorem value (c : Dev nD) :
    (dat0 (F := Ideal) V c).arrAt 2 cfg0.N = Cert.Gcn.dense0 (F := Ideal) (V c main_arg0) (V c main_arg2) :=
  (dat0 (F := Ideal) V c).arrAt_eq_of_cover 2 (Cert.Gcn.dense0 (F := Ideal) (V c main_arg0) (V c main_arg2))
    (fun t _ => flushed_eq V c t) cover

end Cert.KernelIdeal.Region0

end
-- ==== Proof.Region1.lean ====
/- The second dense stage of the two-layer graph convolution, row block by row block.

   The stage walks ten blocks of 5000 nodes.  At block t it sees rows 5000·t … 5000·t + 4999 of the first
   aggregate A (50000 × 128), the whole bias row b (1 × 128) and the whole second weight matrix W (128 × 64),
   and it writes rows 5000·t … 5000·t + 4999 of the result: entry (r, q) of the block is
       Σ_{k < 128} max(A[5000·t + r, k] + b[0, k], 0) · W[k, q].
   The whole-array map max(A + b, 0) · W read at (5000·t + r, q) is the same sum of the same products, and
   the ten blocks tile the 50000 rows (row i lies in block i / 5000).  So after the stage the result array
   is that map of the arrays the stage was entered with.  The zero of the clamp is one and the same constant
   on both sides and is never evaluated; narrowing an operand to the product's format changes nothing over
   the extended reals; no entry has to be finite. -/
import proofs.«164764_j35175782154949_1_alg».proof.Proof.Gen.KernelIdeal.Frame
import proofs.«164764_j35175782154949_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx (ix0 ix2 eq_ix2)

/-! ## One row block: the product's operand indices, the hidden entry, the block's entry

For a 5000 × 128 by 128 × 64 product with the contraction over the left operand's columns and the right
operand's rows, output entry (r, q) and contraction index k meet the operands at (r, k) and (k, q). -/

/-- The left operand is read in the output's row … -/
theorem lhs_blk_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … and in the column the contraction index names; -/
theorem lhs_blk_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- the right operand is read in the row the contraction index names … -/
theorem rhs_blk_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- … and in the output's column. -/
theorem rhs_blk_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- One entry of the hidden layer of a row block: recasting a block to its own shape changes nothing, the bias row
    stretched over the 5000 rows reads its column's entry in every row, and the clamp is the maximum with the zero
    constant: max(x0[r, k] + x1[0, k], 0). -/
theorem hidden_blk_apply (x0 : Vec Ideal S5000x128 .f32) (x1 : Vec Ideal S1x128 .f32) (r : Fin 5000) (k : Fin 128) :
    maximumf (F := Ideal) (addf (shapeCast S5000x128 x0 shapeCasts_S5000x128_S5000x128)
        (broadcastTo S5000x128 (shapeCast S1x128 x1 shapeCasts_S1x128_S1x128) broadcasts_S1x128_S5000x128))
      (broadcast S5000x128 (Scalar.ofBits .f32 0x00000000#32)) (ix2 r k)
      = max (x0 (ix2 r k) + x1 (ix2 0 k)) (Ideal.ofBits .f32 0x00000000#32) := by
  rw [shapeCast_self, shapeCast_self]
  show max (x0 (ix2 r k) + broadcastTo S5000x128 x1 broadcasts_S1x128_S5000x128 (ix2 r k)) (Ideal.ofBits .f32 0x00000000#32) = _
  rw [broadcastTo_apply x1 broadcasts_S1x128_S5000x128 (ix2 r k) (ix2 0 k) (fun a => match a with
    | ⟨0, _⟩ => by show (0 : Nat) = if (1 : Nat) = 1 then 0 else _; rw [if_pos rfl]
    | ⟨1, _⟩ => by show k.val = if (128 : Nat) = 1 then 0 else k.val; rw [if_neg (by decide)])]

/-- One entry of the block the body stores: the product into a zero accumulator is the plain sum over the 128
    contraction indices (re-indexed from the one-axis contraction shape to 0 … 127) of hidden entry times weight
    entry; narrowing either operand is the identity here. -/
theorem payload_apply (x0 : Vec Ideal S5000x128 .f32) (x1 : Vec Ideal S1x128 .f32) (x2 : Vec Ideal S128x64 .f32) (r : Fin 5000) (q : Fin 64) :
    k1_pay1 (F := Ideal) x0 x1 x2 (ix2 r q)
      = ∑ k : Fin 128, max (x0 (ix2 r k) + x1 (ix2 0 k)) (Ideal.ofBits .f32 0x00000000#32) * x2 (ix2 k q) := by
  unfold k1_pay1
  refine (Ideal.matmul_constant_zero_apply dot_S5000x128_S128x64_S5000x64_1_0_0_1_n_n none _ _ (ix2 r q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 r q) ((ValueIdx.contrEquiv1 dot_S5000x128_S128x64_S5000x64_1_0_0_1_n_n 128 rfl rfl).symm k) = ix2 r k := funext fun a => Fin.ext (by
    match a with
    | ⟨0, _⟩ => exact lhs_blk_0 _ _
    | ⟨1, _⟩ => exact (lhs_blk_1 _ _).trans hk)
  have er : dot_S5000x128_S128x64_S5000x64_1_0_0_1_n_n.rhsIdx (ix2 r q) ((ValueIdx.contrEquiv1 dot_S5000x128_S128x64_S5000x64_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]
  exact congrArg (· * x2 (ix2 k q)) (hidden_blk_apply x0 x1 r k)

/-! ## The whole map at an index

The same reading of the 50000 × 128 by 128 × 64 product of the whole arrays. -/

/-- The left operand is read in the output's row … -/
theorem lhs_all_0 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x64_S50000x64_1_0_0_1_n_n.lhsBatch by decide), dif_pos (show (0 : Fin Cert.ReferenceIdeal.S50000x128.rank) ∈ Cert.ReferenceIdeal.dot_S50000x128_S128x64_S50000x64_1_0_0_1_n_n.lhsNonContracting by decide)]
  rfl
/-- … and in the column the contraction index names; -/
theorem lhs_all_1 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 1).val = (q ⟨0, by decide⟩).val :=
  Cert.ReferenceIdeal.dot_S50000x128_S128x64_S50000x64_1_0_0_1_n_n.lhsIdx_val_of_single rfl i q
/-- the right operand is read in the row the contraction index names … -/
theorem rhs_all_0 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 0).val = (q ⟨0, by decide⟩).val :=
  Cert.ReferenceIdeal.dot_S50000x128_S128x64_S50000x64_1_0_0_1_n_n.rhsIdx_val_of_single rfl i q
/-- … and in the output's column. -/
theorem rhs_all_1 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 1).val = (i 1).val := by
  unfold DotDims.rhsIdx
  rw [dif_neg (show ¬(1 : Fin Cert.ReferenceIdeal.S128x64.rank) ∈ Cert.ReferenceIdeal.dot_S50000x128_S128x64_S50000x64_1_0_0_1_n_n.rhsBatch by decide), dif_pos (show (1 : Fin Cert.ReferenceIdeal.S128x64.rank) ∈ Cert.ReferenceIdeal.dot_S50000x128_S128x64_S50000x64_1_0_0_1_n_n.rhsNonContracting by decide)]
  rfl

/-- One entry of the whole hidden layer: the bias row stretched over the 50000 rows reads its column's entry, and the
    zero the sum is clamped at is the scalar zero constant spread over the array, the same word at every index:
    max(agg[r, k] + brow[0, k], 0). -/
theorem hidden_all_apply (agg : (⟨Cert.ReferenceIdeal.S50000x128, .f32⟩ : BufTy).Contents (Elt Ideal)) (brow : (⟨Cert.ReferenceIdeal.S1x128, .f32⟩ : BufTy).Contents (Elt Ideal))
    (r : Fin 50000) (k : Fin 128) :
    maximumf (F := Ideal) (addf agg (broadcastInDim Cert.ReferenceIdeal.S50000x128 ![0, 1] Cert.ReferenceIdeal.Gen.bcast_S1x128_S50000x128_0_1 brow))
      (broadcastInDim Cert.ReferenceIdeal.S50000x128 ![] Cert.ReferenceIdeal.Gen.bcast_S_S50000x128 (constant (F := Ideal) Cert.ReferenceIdeal.S_ .f32 0x00000000#32)) (ix2 r k)
      = max (agg (ix2 r k) + brow (ix2 0 k)) (Ideal.ofBits .f32 0x00000000#32) := by
  show max (agg (ix2 r k) + broadcastInDim Cert.ReferenceIdeal.S50000x128 ![0, 1] Cert.ReferenceIdeal.Gen.bcast_S1x128_S50000x128_0_1 brow (ix2 r k))
      (broadcastInDim Cert.ReferenceIdeal.S50000x128 ![] Cert.ReferenceIdeal.Gen.bcast_S_S50000x128 (constant (F := Ideal) Cert.ReferenceIdeal.S_ .f32 0x00000000#32) (ix2 r k)) = _
  rw [broadcastInDim_apply ![0, 1] Cert.ReferenceIdeal.Gen.bcast_S1x128_S50000x128_0_1 brow (ix2 r k) (ix2 0 k) (fun a => match a with
      | ⟨0, _⟩ => by show (0 : Nat) = if (1 : Nat) = 1 then 0 else _; rw [if_pos rfl]
      | ⟨1, _⟩ => by show k.val = if (128 : Nat) = 1 then 0 else k.val; rw [if_neg (by decide)]),
    broadcastInDim_apply ![] Cert.ReferenceIdeal.Gen.bcast_S_S50000x128 (constant (F := Ideal) Cert.ReferenceIdeal.S_ .f32 0x00000000#32) (ix2 r k) ix0 (fun a => a.elim0)]
  rfl

/-- One entry of max(agg + brow, 0) · w: the sum over the 128 contraction indices of hidden entry times weight entry. -/
theorem dense1_apply (agg : (⟨Cert.ReferenceIdeal.S50000x128, .f32⟩ : BufTy).Contents (Elt Ideal)) (brow : (⟨Cert.ReferenceIdeal.S1x128, .f32⟩ : BufTy).Contents (Elt Ideal))
    (w : (⟨Cert.ReferenceIdeal.S128x64, .f32⟩ : BufTy).Contents (Elt Ideal)) (r : Fin 50000) (q : Fin 64) :
    Cert.Gcn.dense1 (F := Ideal) agg brow w (ix2 r q)
      = ∑ k : Fin 128, max (agg (ix2 r k) + brow (ix2 0 k)) (Ideal.ofBits .f32 0x00000000#32) * w (ix2 k q) := by
  unfold Cert.Gcn.dense1
  simp only [Host.dotGeneral]
  rw [Ideal.dotGeneral_apply, ← Equiv.sum_comp (ValueIdx.contrEquiv1 Cert.ReferenceIdeal.dot_S50000x128_S128x64_S50000x64_1_0_0_1_n_n 128 rfl rfl).symm]
  refine Finset.sum_congr rfl fun k _ => ?_
  have hk := ValueIdx.contrEquiv1_symm_val Cert.ReferenceIdeal.dot_S50000x128_S128x64_S50000x64_1_0_0_1_n_n 128 rfl rfl k
  have el : Cert.ReferenceIdeal.dot_S50000x128_S128x64_S50000x64_1_0_0_1_n_n.lhsIdx (ix2 r q) ((ValueIdx.contrEquiv1 Cert.ReferenceIdeal.dot_S50000x128_S128x64_S50000x64_1_0_0_1_n_n 128 rfl rfl).symm k) = ix2 r k := funext fun a => Fin.ext (by
    match a with
    | ⟨0, _⟩ => exact lhs_all_0 _ _
    | ⟨1, _⟩ => exact (lhs_all_1 _ _).trans hk)
  have er : Cert.ReferenceIdeal.dot_S50000x128_S128x64_S50000x64_1_0_0_1_n_n.rhsIdx (ix2 r q) ((ValueIdx.contrEquiv1 Cert.ReferenceIdeal.dot_S50000x128_S128x64_S50000x64_1_0_0_1_n_n 128 rfl rfl).symm k) = ix2 k q := funext fun a => Fin.ext (by
    match a with
    | ⟨0, _⟩ => exact (rhs_all_0 _ _).trans hk
    | ⟨1, _⟩ => exact rhs_all_1 _ _)
  rw [el, er]
  exact congrArg (· * w (ix2 k q)) (hidden_all_apply agg brow r k)

/-! ## From the blocks to the array

Block t of the result is rows 5000·t … 5000·t + 4999 of the whole map; the ten blocks tile the array. -/

-- the buffer contents the stage is entered with: any
variable (V : (c : Dev nD) → (b : Ref sig .tc) → Buf (Elt Ideal) ((c : Thread nD τ).loc b))

/-- The body reads and writes each of its buffers whole: the offsets are zero on both axes. -/
theorem zero_offsets : (![0, 0] : Fin 2 → Nat) = fun _ => 0 :=
  funext fun a => match a with | ⟨0, _⟩ => rfl | ⟨1, _⟩ => rfl

/-- Where the four windows sit at each of the ten points: the aggregate's and the result's block is row block t,
    column block 0; the bias row and the weight matrix are their whole arrays at every point. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- There are ten points. -/
theorem point_lt (t : Fin cfg1.N) : t.val < 10 := lt_of_lt_of_eq t.isLt N_1

/-- Entry (r, k) of the aggregate's block at point t is entry (5000·t + r, k) of the aggregate. -/
theorem agg_blk_apply (c : Dev nD) (t : Fin cfg1.N) (r : Fin 5000) (k : Fin 128) (R : Fin 50000) (hR : R.val = t.val * 5000 + r.val) :
    iblk1 V c 0 t (ix2 r k) = V c main_v43 (ix2 R k) := by
  obtain ⟨e00, e01, -⟩ := block_indices t
  show V c main_v43 (((cfg1.win 0).blk t).view.emb (ix2 r k)) = V c main_v43 (ix2 R k)
  refine congrArg (fun i => V c main_v43 i) (funext fun a => Fin.ext ?_)
  match a with
  | ⟨0, _⟩ => show win1_0.index t (0 : Fin 2) * 5000 + 1 * r.val = R.val; omega
  | ⟨1, _⟩ => show win1_0.index t (1 : Fin 2) * 128 + 1 * k.val = k.val; omega

/-- The bias row's block is the bias row. -/
theorem bias_blk_apply (c : Dev nD) (t : Fin cfg1.N) (k : Fin 128) :
    iblk1 V c 1 t (ix2 0 k) = V c main_v44 (ix2 0 k) := by
  obtain ⟨-, -, e10, e11, -⟩ := block_indices t
  show V c main_v44 (((cfg1.win 1).blk t).view.emb (ix2 0 k)) = V c main_v44 (ix2 0 k)
  refine congrArg (fun i => V c main_v44 i) (funext fun a => Fin.ext ?_)
  match a with
  | ⟨0, _⟩ => show win1_1.index t (0 : Fin 2) * 1 + 1 * 0 = 0; omega
  | ⟨1, _⟩ => show win1_1.index t (1 : Fin 2) * 128 + 1 * k.val = k.val; omega

/-- The weight matrix's block is the weight matrix. -/
theorem weight_blk_apply (c : Dev nD) (t : Fin cfg1.N) (k : Fin 128) (q : Fin 64) :
    iblk1 V c 2 t (ix2 k q) = V c main_arg4 (ix2 k q) := by
  obtain ⟨-, -, -, -, e20, e21, -⟩ := block_indices t
  show V c main_arg4 (((cfg1.win 2).blk t).view.emb (ix2 k q)) = V c main_arg4 (ix2 k q)
  refine congrArg (fun i => V c main_arg4 i) (funext fun a => Fin.ext ?_)
  match a with
  | ⟨0, _⟩ => show win1_2.index t (0 : Fin 2) * 128 + 1 * k.val = k.val; omega
  | ⟨1, _⟩ => show win1_2.index t (1 : Fin 2) * 64 + 1 * q.val = q.val; omega

/-- What point t writes back is block t of the whole map: entry (r, q) of the stored block and entry (5000·t + r, q) of
    max(A + b, 0) · W are the same sum, term by term. -/
theorem flushed_eq (c : Dev nD) (t : Fin cfg1.N) :
    (dat1 (F := Ideal) V c).flushed 3 t = ((cfg1.win 3).blk t).view.read (Elt Ideal) (Cert.Gcn.dense1 (F := Ideal) (V c main_v43) (V c main_v44) (V c main_arg4)) := by
  show (cfg1.win 3).cut (grid1.coords t) ((dat1 (F := Ideal) V c).after 3 t) = _
  rw [after1_3]
  unfold out1_3
  rw [View.canon_unit_zero zero_offsets]
  simp only [View.ld_unit_zero (S := S5000x128) zero_offsets, View.ld_unit_zero (S := S1x128) zero_offsets, View.ld_unit_zero (S := S128x64) zero_offsets]
  obtain ⟨-, -, -, -, -, -, e30, e31⟩ := block_indices t
  have ht := point_lt t
  refine funext fun (j : S5000x64.Idx) => ?_
  obtain ⟨r, q, rfl⟩ : ∃ (r : Fin 5000) (q : Fin 64), j = ix2 r q := ⟨j 0, j 1, eq_ix2 j⟩
  have hr := r.isLt
  have e3 : ((cfg1.win 3).blk t).view.emb (ix2 r q) = ix2 (⟨t.val * 5000 + r.val, by omega⟩ : Fin 50000) q := by
    funext a; apply Fin.ext
    match a with
    | ⟨0, _⟩ => show win1_3.index t (0 : Fin 2) * 5000 + 1 * r.val = t.val * 5000 + r.val; omega
    | ⟨1, _⟩ => show win1_3.index t (1 : Fin 2) * 64 + 1 * q.val = q.val; omega
  show k1_pay1 (F := Ideal) (iblk1 V c 0 t) (iblk1 V c 1 t) (iblk1 V c 2 t) (ix2 r q)
    = Cert.Gcn.dense1 (F := Ideal) (V c main_v43) (V c main_v44) (V c main_arg4) (((cfg1.win 3).blk t).view.emb (ix2 r q))
  rw [e3]
  refine (payload_apply (iblk1 V c 0 t) (iblk1 V c 1 t) (iblk1 V c 2 t) r q).trans ?_
  refine Eq.trans ?_ (dense1_apply (V c main_v43) (V c main_v44) (V c main_arg4) ⟨t.val * 5000 + r.val, by omega⟩ q).symm
  refine Finset.sum_congr rfl fun k _ => ?_
  rw [agg_blk_apply V c t r k ⟨t.val * 5000 + r.val, by omega⟩ rfl, bias_blk_apply V c t k, weight_blk_apply V c t k q]

/-- An index of the result array lies in point t's block iff each coordinate lies in the block's range on its axis. -/
theorem mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v45).slice (win1_3.rect t)).set ↔ _
  rw [View.set_slice_whole, Rect.mem_set_unit]
  exact Iff.rfl

/-- Every index of the result array lies in some point's block: row i is in block i / 5000, and the one column
    block holds all 64 columns. -/
theorem covered (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : (i 0).val / 5000 < cfg1.N := lt_of_lt_of_eq (by omega) N_1.symm
  refine ⟨⟨(i 0).val / 5000, hN⟩, flush1_3 _, ?_⟩
  obtain ⟨-, -, -, -, -, -, e30, e31⟩ := block_indices ⟨(i 0).val / 5000, hN⟩
  rw [mem_blk]
  intro a
  match a with
  | ⟨0, _⟩ => show win1_3.index ⟨(i 0).val / 5000, hN⟩ (0 : Fin 2) * 5000 ≤ (i 0).val ∧ (i 0).val < win1_3.index ⟨(i 0).val / 5000, hN⟩ (0 : Fin 2) * 5000 + 5000; rw [e30]; show (i 0).val / 5000 * 5000 ≤ (i 0).val ∧ (i 0).val < (i 0).val / 5000 * 5000 + 5000; omega
  | ⟨1, _⟩ => show win1_3.index ⟨(i 0).val / 5000, hN⟩ (1 : Fin 2) * 64 ≤ (i 1).val ∧ (i 1).val < win1_3.index ⟨(i 0).val / 5000, hN⟩ (1 : Fin 2) * 64 + 64; rw [e31]; omega

/-- After the second tiled stage its result array is the whole bias / clamp / dense map of the arrays it was entered with. -/
theorem value (c : Dev nD) :
    (dat1 (F := Ideal) V c).arrAt 3 cfg1.N = Cert.Gcn.dense1 (F := Ideal) (V c main_v43) (V c main_v44) (V c main_arg4) :=
  (dat1 (F := Ideal) V c).arrAt_eq_of_cover 3 (Cert.Gcn.dense1 (F := Ideal) (V c main_v43) (V c main_v44) (V c main_arg4)) (fun t _ => flushed_eq V c t) covered

end Cert.KernelIdeal.Region1

end
-- ==== Proof.Region2.lean ====
/- The third tiled stage: ten row blocks of 5000 nodes, each block plus the bias row through the logistic function, and its comparison with one half, written back block by block, leave the whole probability and prediction arrays. -/
import proofs.«164764_j35175782154949_1_alg».proof.Proof.Gen.KernelIdeal.Frame
import proofs.«164764_j35175782154949_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx

/-! ## The scalar facts -/

/-- The word 0x3F800000 denotes the number one. -/
theorem one_word : Ideal.ofBits .f32 0x3F800000#32 = 1 := by
  simp [Ideal.ofBits, Ideal.ieee, -EReal.coe_mul]; norm_num

/-- A single bit read as an unsigned number is the same number as the bit widened by zeros to 32 bits and read signed:
    both are 0 for the clear bit and 1 for the set bit. -/
theorem bit_to_float (b : BitVec 1) :
    (FloatOps.uitofp (F := Ideal) .f32 b) = FloatOps.sitofp (F := Ideal) .f32 (b.setWidth 32) := by
  show (((b.toNat : ℝ) : EReal)) = ((((b.setWidth 32).toInt : ℝ)) : EReal)
  by_cases h : b = 1#1
  · subst h
    have e1 : (1#1 : BitVec 1).toNat = 1 := by decide
    have e2 : ((1#1 : BitVec 1).setWidth 32).toInt = 1 := by decide
    rw [e1, e2]; norm_num
  · have h0 := eq_zero_of_ne_one h
    subst h0
    have e1 : (0#1 : BitVec 1).toNat = 0 := by decide
    have e2 : ((0#1 : BitVec 1).setWidth 32).toInt = 0 := by decide
    rw [e1, e2]; norm_num

/-! ## Both sides at one index -/

/-- A scalar word spread over the whole 50000×64 array reads as that word's number at every index. -/
theorem splat_apply (h : Cert.ReferenceIdeal.S_.BroadcastsInDim S50000x64 (![] : Fin 0 → Fin S50000x64.rank)) (w : BitVec 32) (i : S50000x64.Idx) :
    broadcastInDim S50000x64 ![] h (constant (F := Ideal) Cert.ReferenceIdeal.S_ .f32 w) i
      = Ideal.ofBits .f32 w :=
  broadcastInDim_apply _ _ _ i ix0 (fun a => a.elim0)

/-- The bias row spread over the 50000 nodes reads, at a node and a class, as the row's entry for the class. -/
theorem row_apply (h : S1x64.BroadcastsInDim S50000x64 (![0, 1] : Fin 2 → Fin S50000x64.rank)) (brow : S1x64.Idx → EReal) (i : S50000x64.Idx) :
    broadcastInDim S50000x64 ![0, 1] h brow i = brow (ix2 0 (i 1)) :=
  broadcastInDim_apply _ _ _ i (ix2 0 (i 1)) (fun a => by match a with | ⟨0, _⟩ => rfl | ⟨1, _⟩ => rfl)

/-- The probability of the specification at a node and a class: the logistic function of the aggregate there plus the
    bias row's entry for the class. -/
theorem prob_apply (agg : S50000x64.Idx → EReal) (brow : S1x64.Idx → EReal) (i : S50000x64.Idx) :
    Cert.Gcn.prob (F := Ideal) agg brow i = Ideal.logistic (agg i + brow (ix2 0 (i 1))) := by
  unfold Cert.Gcn.prob
  show Ideal.div (broadcastInDim S50000x64 ![] Cert.ReferenceIdeal.Gen.bcast_S_S50000x64 (constant (F := Ideal) Cert.ReferenceIdeal.S_ .f32 0x3F800000#32) i)
      (broadcastInDim S50000x64 ![] Cert.ReferenceIdeal.Gen.bcast_S_S50000x64 (constant (F := Ideal) Cert.ReferenceIdeal.S_ .f32 0x3F800000#32) i
        + Ideal.exp (-(agg i + broadcastInDim S50000x64 ![0, 1] Cert.ReferenceIdeal.Gen.bcast_S1x64_S50000x64_0_1 brow i)))
    = Ideal.div 1 (1 + Ideal.exp (-(agg i + brow (ix2 0 (i 1)))))
  rw [splat_apply, row_apply, one_word]

/-- The prediction of the specification at a node and a class: the bit "the probability exceeds one half", read as a number. -/
theorem pred_apply (agg : S50000x64.Idx → EReal) (brow : S1x64.Idx → EReal) (i : S50000x64.Idx) :
    Cert.Gcn.pred (F := Ideal) agg brow i
      = FloatOps.uitofp (F := Ideal) .f32 (FloatOps.cmpf (F := Ideal) .ogt (Ideal.logistic (agg i + brow (ix2 0 (i 1)))) (Ideal.ofBits .f32 0x3F000000#32)) := by
  unfold Cert.Gcn.pred
  show FloatOps.uitofp (F := Ideal) .f32 (FloatOps.cmpf (F := Ideal) .ogt (Cert.Gcn.prob (F := Ideal) agg brow i)
      (broadcastInDim S50000x64 ![] Cert.ReferenceIdeal.Gen.bcast_S_S50000x64 (constant (F := Ideal) Cert.ReferenceIdeal.S_ .f32 0x3F000000#32) i)) = _
  rw [splat_apply, prob_apply]

/-- What the body stores into the probability block, at a row of the block and a class: the logistic function of the
    loaded aggregate there plus the loaded bias row's entry for the class. -/
theorem pay1_apply (x0 : Vec Ideal S5000x64 .f32) (x1 : Vec Ideal S1x64 .f32) (j : S5000x64.Idx) :
    k2_pay1 (F := Ideal) x0 x1 j = Ideal.logistic (x0 j + x1 (ix2 0 (j 1))) := by
  unfold k2_pay1
  show Ideal.logistic (shapeCast S5000x64 x0 shapeCasts_S5000x64_S5000x64 j
      + broadcastTo S5000x64 (shapeCast S1x64 x1 shapeCasts_S1x64_S1x64) broadcasts_S1x64_S5000x64 j) = _
  rw [shapeCast_self, shapeCast_self,
    broadcastTo_apply x1 broadcasts_S1x64_S5000x64 j (ix2 0 (j 1)) (fun a => by match a with | ⟨0, _⟩ => rfl | ⟨1, _⟩ => rfl)]

/-- What the body stores into the prediction block: the bit "the stored probability exceeds one half", widened and read
    as a number, which is the bit read as a number. -/
theorem pay2_apply (x0 : Vec Ideal S5000x64 .f32) (x1 : Vec Ideal S1x64 .f32) (j : S5000x64.Idx) :
    k2_pay2 (F := Ideal) x0 x1 j
      = FloatOps.uitofp (F := Ideal) .f32 (FloatOps.cmpf (F := Ideal) .ogt (Ideal.logistic (x0 j + x1 (ix2 0 (j 1)))) (Ideal.ofBits .f32 0x3F000000#32)) := by
  unfold k2_pay2
  show FloatOps.sitofp (F := Ideal) .f32 ((FloatOps.cmpf (F := Ideal) .ogt (k2_pay1 (F := Ideal) x0 x1 j) (Ideal.ofBits .f32 0x3F000000#32)).setWidth 32) = _
  rw [pay1_apply, bit_to_float]

/-! ## From the blocks to the arrays -/

-- the buffer contents the stage is entered with: any
variable (V : (c : Dev nD) → (b : Ref sig .tc) → Buf (Elt Ideal) ((c : Thread nD τ).loc b))

/-- Every access of the body starts at the corner of its buffer. -/
theorem zero_corner : (![0, 0] : Fin 2 → Nat) = fun _ => 0 :=
  funext fun a => by match a with | ⟨0, _⟩ => rfl | ⟨1, _⟩ => rfl

/-- The four index maps over the ten grid points: point t takes row block t of the aggregate and of both results, and
    always the one block of the bias row; no map moves along the classes. -/
theorem block_indices : ∀ t : Fin cfg2.N,
      win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The aggregate's row block at point t, the bias block there, and the two whole arrays, each at its literal type. -/
abbrev aggBlk (c : Dev nD) (t : Fin cfg2.N) : Vec Ideal S5000x64 .f32 := iblk2 (F := Ideal) V c 0 t
abbrev biasBlk (c : Dev nD) (t : Fin cfg2.N) : Vec Ideal S1x64 .f32 := iblk2 (F := Ideal) V c 1 t
abbrev aggArr (c : Dev nD) : S50000x64.Idx → EReal := V c main_v58
abbrev biasArr (c : Dev nD) : S1x64.Idx → EReal := V c main_v59

/-- The argument of the logistic function, block against array: row j₀ of point t's aggregate block is row 5000·t + j₀
    of the aggregate, and the bias block is the whole bias row. -/
theorem logit_at (c : Dev nD) (t : Fin cfg2.N) (j : S5000x64.Idx) (i : S50000x64.Idx)
    (h0 : (i 0).val = t.val * 5000 + (j 0).val) (h1 : (i 1).val = (j 1).val) :
    aggBlk V c t j + biasBlk V c t (ix2 0 (j 1)) = aggArr V c i + biasArr V c (ix2 0 (i 1)) := by
  obtain ⟨a0, a1, b0, b1, -⟩ := block_indices t
  have e0 : ((cfg2.win 0).blk t).view.emb j = i := by
    funext a; apply Fin.ext
    match a with
    | ⟨0, _⟩ => show win2_0.index t (0 : Fin 2) * 5000 + 1 * (j 0).val = (i 0).val; omega
    | ⟨1, _⟩ => show win2_0.index t (1 : Fin 2) * 64 + 1 * (j 1).val = (i 1).val; omega
  have e1 : ((cfg2.win 1).blk t).view.emb (ix2 0 (j 1)) = ix2 0 (i 1) := by
    funext a; apply Fin.ext
    match a with
    | ⟨0, _⟩ => show win2_1.index t (0 : Fin 2) * 1 + 1 * 0 = 0; omega
    | ⟨1, _⟩ => show win2_1.index t (1 : Fin 2) * 64 + 1 * (j 1).val = (i 1).val; omega
  show aggArr V c (((cfg2.win 0).blk t).view.emb j) + biasArr V c (((cfg2.win 1).blk t).view.emb (ix2 0 (j 1))) = _
  rw [e0, e1]; rfl

/-- What point t writes back to the probability array is block t of the specification's probabilities. -/
theorem prob_block (c : Dev nD) (t : Fin cfg2.N) :
    (dat2 (F := Ideal) V c).flushed 2 t
      = ((cfg2.win 2).blk t).view.read (Elt Ideal) (Cert.Gcn.prob (F := Ideal) (V c main_v58) (V c main_v59)) := by
  show (cfg2.win 2).cut (grid2.coords t) ((dat2 (F := Ideal) V c).after 2 t) = _
  rw [after2_2]
  unfold out2_2
  rw [View.canon_unit_zero zero_corner]
  simp only [View.ld_unit_zero (S := S5000x64) zero_corner, View.ld_unit_zero (S := S1x64) zero_corner]
  obtain ⟨-, -, -, -, p0, p1, -⟩ := block_indices t
  funext j
  show k2_pay1 (F := Ideal) (iblk2 V c 0 t) (iblk2 V c 1 t) j
    = Cert.Gcn.prob (F := Ideal) (V c main_v58) (V c main_v59) (((cfg2.win 2).blk t).view.emb j)
  refine (pay1_apply (iblk2 V c 0 t) (iblk2 V c 1 t) j).trans ?_
  refine Eq.trans ?_ (prob_apply (V c main_v58) (V c main_v59) (((cfg2.win 2).blk t).view.emb j)).symm
  refine congrArg Ideal.logistic (logit_at V c t j (((cfg2.win 2).blk t).view.emb j) ?_ ?_)
  · show win2_2.index t (0 : Fin 2) * 5000 + 1 * (j 0).val = _; omega
  · show win2_2.index t (1 : Fin 2) * 64 + 1 * (j 1).val = _; omega

/-- What point t writes back to the prediction array is block t of the specification's predictions: the compared
    probabilities agree, so the two bits are one bit, and one bit is one number whichever way it is read. -/
theorem pred_block (c : Dev nD) (t : Fin cfg2.N) :
    (dat2 (F := Ideal) V c).flushed 3 t
      = ((cfg2.win 3).blk t).view.read (Elt Ideal) (Cert.Gcn.pred (F := Ideal) (V c main_v58) (V c main_v59)) := by
  show (cfg2.win 3).cut (grid2.coords t) ((dat2 (F := Ideal) V c).after 3 t) = _
  rw [after2_3]
  unfold out2_3
  rw [View.canon_unit_zero zero_corner]
  simp only [View.ld_unit_zero (S := S5000x64) zero_corner, View.ld_unit_zero (S := S1x64) zero_corner]
  obtain ⟨-, -, -, -, -, -, q0, q1⟩ := block_indices t
  funext j
  show k2_pay2 (F := Ideal) (iblk2 V c 0 t) (iblk2 V c 1 t) j
    = Cert.Gcn.pred (F := Ideal) (V c main_v58) (V c main_v59) (((cfg2.win 3).blk t).view.emb j)
  refine (pay2_apply (iblk2 V c 0 t) (iblk2 V c 1 t) j).trans ?_
  refine Eq.trans ?_ (pred_apply (V c main_v58) (V c main_v59) (((cfg2.win 3).blk t).view.emb j)).symm
  refine congrArg (fun x : EReal => FloatOps.uitofp (F := Ideal) .f32 (FloatOps.cmpf (F := Ideal) .ogt (Ideal.logistic x) (Ideal.ofBits .f32 0x3F000000#32)))
    (logit_at V c t j (((cfg2.win 3).blk t).view.emb j) ?_ ?_)
  · show win2_3.index t (0 : Fin 2) * 5000 + 1 * (j 0).val = _; omega
  · show win2_3.index t (1 : Fin 2) * 64 + 1 * (j 1).val = _; omega

/-- A node and class lie in point t's block of the probability array iff each coordinate lies in the block's range. -/
theorem mem_prob_block (t : Fin cfg2.N) (i : S50000x64.Idx) :
    i ∈ ((cfg2.win 2).blk t).view.set
      ↔ ∀ a : Fin 2, win2_2.index t a * S5000x64.size a ≤ (i a).val ∧ (i a).val < win2_2.index t a * S5000x64.size a + S5000x64.size a := by
  show i ∈ ((View.whole main_v60_0).slice (win2_2.rect t)).set ↔ _
  rw [View.set_slice_whole, Rect.mem_set_unit]
  exact Iff.rfl

/-- The same for the prediction array. -/
theorem mem_pred_block (t : Fin cfg2.N) (i : S50000x64.Idx) :
    i ∈ ((cfg2.win 3).blk t).view.set
      ↔ ∀ a : Fin 2, win2_3.index t a * S5000x64.size a ≤ (i a).val ∧ (i a).val < win2_3.index t a * S5000x64.size a + S5000x64.size a := by
  show i ∈ ((View.whole main_v60_1).slice (win2_3.rect t)).set ↔ _
  rw [View.set_slice_whole, Rect.mem_set_unit]
  exact Iff.rfl

/-- The grid point that owns node r: r / 5000, one of the ten. -/
def owner (i : S50000x64.Idx) : Fin cfg2.N :=
  ⟨(i 0).val / 5000, by show _ < grid2.N; rw [N_2]; have := idx2_lt0 i; omega⟩

/-- The ten row blocks fill the probability array: every node is in its owner's block, which is written back. -/
theorem prob_cover (i : S50000x64.Idx) :
    ∃ t : Fin cfg2.N, (cfg2.win 2).flush t = true ∧ i ∈ ((cfg2.win 2).blk t).view.set := by
  obtain ⟨-, -, -, -, p0, p1, -⟩ := block_indices (owner i)
  have ht : (owner i).val = (i 0).val / 5000 := rfl
  have hi1 : (i 1).val < 64 := idx2_lt1 i
  refine ⟨owner i, flush2_2 (owner i), ?_⟩
  rw [mem_prob_block]
  intro a
  match a with
  | ⟨0, _⟩ => show win2_2.index (owner i) (0 : Fin 2) * 5000 ≤ (i 0).val ∧ (i 0).val < win2_2.index (owner i) (0 : Fin 2) * 5000 + 5000; omega
  | ⟨1, _⟩ => show win2_2.index (owner i) (1 : Fin 2) * 64 ≤ (i 1).val ∧ (i 1).val < win2_2.index (owner i) (1 : Fin 2) * 64 + 64; omega

/-- And the prediction array. -/
theorem pred_cover (i : S50000x64.Idx) :
    ∃ t : Fin cfg2.N, (cfg2.win 3).flush t = true ∧ i ∈ ((cfg2.win 3).blk t).view.set := by
  obtain ⟨-, -, -, -, -, -, q0, q1⟩ := block_indices (owner i)
  have ht : (owner i).val = (i 0).val / 5000 := rfl
  have hi1 : (i 1).val < 64 := idx2_lt1 i
  refine ⟨owner i, flush2_3 (owner i), ?_⟩
  rw [mem_pred_block]
  intro a
  match a with
  | ⟨0, _⟩ => show win2_3.index (owner i) (0 : Fin 2) * 5000 ≤ (i 0).val ∧ (i 0).val < win2_3.index (owner i) (0 : Fin 2) * 5000 + 5000; omega
  | ⟨1, _⟩ => show win2_3.index (owner i) (1 : Fin 2) * 64 ≤ (i 1).val ∧ (i 1).val < win2_3.index (owner i) (1 : Fin 2) * 64 + 64; omega

/-- After the third tiled stage its first result array holds the probabilities of the arrays it was entered with. -/
theorem value_prob (c : Dev nD) :
    (dat2 (F := Ideal) V c).arrAt 2 cfg2.N = Cert.Gcn.prob (F := Ideal) (V c main_v58) (V c main_v59) :=
  (dat2 (F := Ideal) V c).arrAt_eq_of_cover 2 (Cert.Gcn.prob (F := Ideal) (V c main_v58) (V c main_v59))
    (fun t _ => prob_block V c t) prob_cover

/-- and its second result array the predictions. -/
theorem value_pred (c : Dev nD) :
    (dat2 (F := Ideal) V c).arrAt 3 cfg2.N = Cert.Gcn.pred (F := Ideal) (V c main_v58) (V c main_v59) :=
  (dat2 (F := Ideal) V c).arrAt_eq_of_cover 3 (Cert.Gcn.pred (F := Ideal) (V c main_v58) (V c main_v59))
    (fun t _ => pred_block V c t) pred_cover

end Cert.KernelIdeal.Region2

end
-- ==== Proof.RefSide.lean ====
/- The host program computes the graph convolution as written: its run ends with the prediction array at
   `Cert.Gcn.outPred` and the probability array at `Cert.Gcn.outProb` of the argument arrays.  The run's two result
   terms are the operations of @main composed in program order; the specification is the same composition with the
   sources, the targets, the edge weights and the two message-passing steps named, so the two are one term. -/
import proofs.«164764_j35175782154949_1_alg».proof.Proof.RefRunP
import proofs.«164764_j35175782154949_1_alg».proof.Proof.Spec

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 16384 in
/-- The probabilities the host program returns are the specification's. -/
theorem prob_eq (c : Dev nD) :
    res_main_v100 m c = Cert.Gcn.outProb (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  unfold res_main_v100
  rfl

set_option maxRecDepth 16384 in
/-- The predictions the host program returns are the specification's. -/
theorem pred_eq (c : Dev nD) :
    res_main_v103 m c = Cert.Gcn.outPred (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  unfold res_main_v103
  rfl

end Cert.ReferenceIdeal.Hand

end
-- ==== Proof.Claims.lean ====
/- The five claims.

   The tiled program and the host program both run to the end with their arguments unchanged: the tiled program's
   frames are its generated ones, the host program's is its generated run with the results dropped.  The idealization
   rewrote nothing, so the tiled program's idealized text is its own.  Over the extended reals both programs end with
   the same two arrays: the tiled program's run ends with the last stage's result arrays, which are the graph
   convolution's predictions and probabilities of the arguments (three dense stages, two message-passing stretches
   between them); the host program's run ends with the same composition; and the arguments agree. -/
import proofs.«164764_j35175782154949_1_alg».proof.Defs
import proofs.«164764_j35175782154949_1_alg».proof.Proof.Gen.Kernel.Frame
import proofs.«164764_j35175782154949_1_alg».proof.Proof.Gen.KernelIdeal.Frame
import proofs.«164764_j35175782154949_1_alg».proof.Proof.Gen.Pre_finite_inputs
import proofs.«164764_j35175782154949_1_alg».proof.Proof.KRun
import proofs.«164764_j35175782154949_1_alg».proof.Proof.KValue
import proofs.«164764_j35175782154949_1_alg».proof.Proof.Region0
import proofs.«164764_j35175782154949_1_alg».proof.Proof.Region1
import proofs.«164764_j35175782154949_1_alg».proof.Proof.Region2
import proofs.«164764_j35175782154949_1_alg».proof.Proof.RefSide

noncomputable section

open Idealize.ShloMosaic Idealize.ShloMosaic.TcCoe Idealize.SL.Sem

namespace Cert.Proof.GcnClaims

theorem frame_k : Cert.frame_Kernel := fun m ρ _ => Cert.Kernel.Gen.frame m ρ

theorem frame_ki : Cert.frame_KernelIdeal := fun m ρ _ => Cert.KernelIdeal.Gen.frame m ρ

/-- The host program's run, its two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- No operation was rewritten. -/
theorem preserves : Cert.preserves_Kernel_KernelIdeal := trivial

/-- Both runs end at the specification's predictions and probabilities of arguments that agree. -/
theorem algebraic : Cert.algebraic_KernelIdeal_ReferenceIdeal := by
  intro m ρ m' ρ' _ hagree
  refine ⟨fun c => Cert.Gcn.outPred (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Gcn.outProb (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Named.run_named (F := Ideal) m ρ)
    obtain ⟨h1, h0, hargs⟩ := h c
    exact ⟨h1.trans (Cert.KernelIdeal.KValue.pred8 m ρ Cert.KernelIdeal.Region0.value Cert.KernelIdeal.Region1.value
        Cert.KernelIdeal.Region2.value_prob Cert.KernelIdeal.Region2.value_pred c),
      h0.trans (Cert.KernelIdeal.KValue.prob8 m ρ Cert.KernelIdeal.Region0.value Cert.KernelIdeal.Region1.value
        Cert.KernelIdeal.Region2.value_prob Cert.KernelIdeal.Region2.value_pred c), hargs⟩
  · refine (θ_run Cert.ReferenceIdeal.defs _ _).mono (fun r h c => ?_) (Cert.ReferenceIdeal.ValueP.run (F := Ideal) m' ρ')
    obtain ⟨h103, h100, hargs⟩ := h c
    obtain ⟨e0, e1, e2, e3, e4, e5⟩ := hagree c
    refine ⟨h103.trans ?_, h100.trans ?_, hargs⟩
    · rw [Cert.ReferenceIdeal.Hand.pred_eq, e0, e1, e2, e3, e4, e5]
    · rw [Cert.ReferenceIdeal.Hand.prob_eq, e0, e1, e2, e3, e4, e5]

end Cert.Proof.GcnClaims

end
-- ==== Proof.lean ====
/- A two-layer graph convolution, tiled: three dense stages run as row-blocked kernels (x · W1; max(agg + b1, 0) · W2;
   the logistic function of agg + b2 and its comparison with one half), the message passing between them (gather the
   source rows, scale by the edge weights, scatter-add onto the target rows) done by host operations — against the
   same network written with host operations only.  Over the extended reals a change of float format is the identity,
   a tiled product into a zero accumulator is the host's contraction, and the kernel's logistic is 1 / (1 + exp(-z)),
   so both programs compute one function of the arguments; the claims are assembled in Proof/Claims.lean. -/
import proofs.«164764_j35175782154949_1_alg».proof.Defs
import proofs.«164764_j35175782154949_1_alg».proof.Proof.Gen.Kernel
import proofs.«164764_j35175782154949_1_alg».proof.Proof.Gen.KernelIdeal
import proofs.«164764_j35175782154949_1_alg».proof.Proof.Gen.ReferenceIdeal
import proofs.«164764_j35175782154949_1_alg».proof.Proof.Gen.Pre_finite_inputs
import proofs.«164764_j35175782154949_1_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    GcnClaims.frame_k, GcnClaims.frame_ki, GcnClaims.frame_ri, GcnClaims.preserves, GcnClaims.algebraic⟩

end Cert.Proof

end
